-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x32 : S_.BroadcastsInDim S32x32 (![] : Fin 0 → Fin S32x32.rank)
  reducesTo_S32x32_S_d0_1 : S32x32.ReducesTo [0, 1] S_
  reducesTo_S10000x10000_S10000_d0 : S10000x10000.ReducesTo [0] S10000
  bcast_S_S10000 : S_.BroadcastsInDim S10000 (![] : Fin 0 → Fin S10000.rank)
  reducesTo_S10000_S_d0 : S10000.ReducesTo [0] S_

variable [Facts]

def fn_part1 {F : FTy → Type} [FloatOps F] (main_arg1 : FVec F S10000x10000 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_cst_6 : FVec F S_ .f32 := constant S_ .f32 0x00000000#32
  let main_v19 : FVec F S10000 .f32 := (fun x v => Host.reduceAdd x v reducesTo_S10000x10000_S10000_d0 h_S_) main_arg1 main_cst_6
  let main_cst_7 : FVec F S_ .f32 := constant S_ .f32 0x00000000#32
  let main_v20 : FVec F S10000 .f32 := broadcastInDim S10000 ![] bcast_S_S10000 main_cst_7
  let main_v21 : IVec S10000 1 := cmpf .une main_v19 main_v20
  let main_c_8 : IVec S_ 1 := constantI S_ 1 1#1
  let main_v22 : IVec S_ 1 := (fun x v => Host.reduce IntOp.andi x v reducesTo_S10000_S_d0 h_S_) main_v21 main_c_8
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S32x1 : Shape := ⟨2, ![32, 1]⟩
abbrev S1x1 : Shape := ⟨2, ![1, 1]⟩
abbrev S400x10000 : Shape := ⟨2, ![400, 10000]⟩
abbrev S10000x32 : Shape := ⟨2, ![10000, 32]⟩
abbrev S8x10000 : Shape := ⟨2, ![8, 10000]⟩
abbrev S400x32 : Shape := ⟨2, ![400, 32]⟩
abbrev S400x1 : Shape := ⟨2, ![400, 1]⟩
abbrev S8x2048 : Shape := ⟨2, ![8, 2048]⟩
abbrev S8x1 : Shape := ⟨2, ![8, 1]⟩
abbrev S8x1808 : Shape := ⟨2, ![8, 1808]⟩
abbrev S10000 : Shape := ⟨1, ![10000]⟩
abbrev S1x10000 : Shape := ⟨2, ![1, 10000]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S32x1, .f32⟩
  | .hbm, ⟨5, _⟩ => ⟨S1x1, .f32⟩
  | .hbm, ⟨6, _⟩ => ⟨S_, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x32, .f32⟩
  | .local _ .vmem, ⟨4, _⟩ => ⟨S32x1, .f32⟩
  | .local _ .vmem, ⟨5, _⟩ => ⟨S1x1, .f32⟩
  | .local _ .vmem, ⟨6, _⟩ => ⟨S10000x32, .f32⟩
  | .local _ .vmem, ⟨7, _⟩ => ⟨S8x10000, .f32⟩
  | .local _ .vmem, ⟨8, _⟩ => ⟨S8x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v1556 : BitVec 1 := Scalar.cmpi .eq arg0 c24_i32
  let v1557 : BitVec 32 := Scalar.extui v1556
  let c0_i32_44 : BitVec 32 := 0#32
  let v1558 : BitVec 1 := Scalar.cmpi .ne v1557 c0_i32_44
  v1558

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S32x32_S32x1_0_0 : S32x32.Slices ![0, 0] S32x1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S8x10000_S8x10000_0_0 : ∀ a, (![0, 0] : Fin 2 → Nat) a + S8x10000.size a ≤ S8x10000.size a
  h_S8x10000 : 0 < S8x10000.numel
  shapeCasts_S8x10000_S8x10000 : S8x10000.ShapeCasts S8x10000
  inb_S400x10000_S400x10000_0_0 : ∀ a, (![0, 0] : Fin 2 → Nat) a + S400x10000.size a ≤ S400x10000.size a
  h_S400x10000 : 0 < S400x10000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  slices_S400x10000_o0_0_S8x2048 : S400x10000.Slices ![0, 0] S8x2048
  slices_S400x1_o0_0_S8x1 : S400x1.Slices ![0, 0] S8x1
  broadcasts_S8x1_S8x2048 : S8x1.Broadcasts S8x2048
  slices_S400x10000_o8_0_S8x2048 : S400x10000.Slices ![8, 0] S8x2048
  slices_S400x1_o8_0_S8x1 : S400x1.Slices ![8, 0] S8x1
  slices_S400x10000_o16_0_S8x2048 : S400x10000.Slices ![16, 0] S8x2048
  slices_S400x1_o16_0_S8x1 : S400x1.Slices ![16, 0] S8x1
  slices_S400x10000_o24_0_S8x2048 : S400x10000.Slices ![24, 0] S8x2048
  slices_S400x1_o24_0_S8x1 : S400x1.Slices ![24, 0] S8x1
  slices_S400x10000_o32_0_S8x2048 : S400x10000.Slices ![32, 0] S8x2048
  slices_S400x1_o32_0_S8x1 : S400x1.Slices ![32, 0] S8x1
  slices_S400x10000_o40_0_S8x2048 : S400x10000.Slices ![40, 0] S8x2048
  slices_S400x1_o40_0_S8x1 : S400x1.Slices ![40, 0] S8x1
  slices_S400x10000_o48_0_S8x2048 : S400x10000.Slices ![48, 0] S8x2048
  slices_S400x1_o48_0_S8x1 : S400x1.Slices ![48, 0] S8x1
  slices_S400x10000_o56_0_S8x2048 : S400x10000.Slices ![56, 0] S8x2048
  slices_S400x1_o56_0_S8x1 : S400x1.Slices ![56, 0] S8x1
  slices_S400x10000_o64_0_S8x2048 : S400x10000.Slices ![64, 0] S8x2048
  slices_S400x1_o64_0_S8x1 : S400x1.Slices ![64, 0] S8x1
  slices_S400x10000_o72_0_S8x2048 : S400x10000.Slices ![72, 0] S8x2048
  slices_S400x1_o72_0_S8x1 : S400x1.Slices ![72, 0] S8x1
  slices_S400x10000_o80_0_S8x2048 : S400x10000.Slices ![80, 0] S8x2048
  slices_S400x1_o80_0_S8x1 : S400x1.Slices ![80, 0] S8x1
  slices_S400x10000_o88_0_S8x2048 : S400x10000.Slices ![88, 0] S8x2048
  slices_S400x1_o88_0_S8x1 : S400x1.Slices ![88, 0] S8x1
  slices_S400x10000_o96_0_S8x2048 : S400x10000.Slices ![96, 0] S8x2048
  slices_S400x1_o96_0_S8x1 : S400x1.Slices ![96, 0] S8x1
  slices_S400x10000_o104_0_S8x2048 : S400x10000.Slices ![104, 0] S8x2048
  slices_S400x1_o104_0_S8x1 : S400x1.Slices ![104, 0] S8x1
  slices_S400x10000_o112_0_S8x2048 : S400x10000.Slices ![112, 0] S8x2048
  slices_S400x1_o112_0_S8x1 : S400x1.Slices ![112, 0] S8x1
  slices_S400x10000_o120_0_S8x2048 : S400x10000.Slices ![120, 0] S8x2048
  slices_S400x1_o120_0_S8x1 : S400x1.Slices ![120, 0] S8x1
  slices_S400x10000_o128_0_S8x2048 : S400x10000.Slices ![128, 0] S8x2048
  slices_S400x1_o128_0_S8x1 : S400x1.Slices ![128, 0] S8x1
  slices_S400x10000_o136_0_S8x2048 : S400x10000.Slices ![136, 0] S8x2048
  slices_S400x1_o136_0_S8x1 : S400x1.Slices ![136, 0] S8x1
  slices_S400x10000_o144_0_S8x2048 : S400x10000.Slices ![144, 0] S8x2048
  slices_S400x1_o144_0_S8x1 : S400x1.Slices ![144, 0] S8x1
  slices_S400x10000_o152_0_S8x2048 : S400x10000.Slices ![152, 0] S8x2048
  slices_S400x1_o152_0_S8x1 : S400x1.Slices ![152, 0] S8x1
  slices_S400x10000_o160_0_S8x2048 : S400x10000.Slices ![160, 0] S8x2048
  slices_S400x1_o160_0_S8x1 : S400x1.Slices ![160, 0] S8x1
  slices_S400x10000_o168_0_S8x2048 : S400x10000.Slices ![168, 0] S8x2048
  slices_S400x1_o168_0_S8x1 : S400x1.Slices ![168, 0] S8x1
  slices_S400x10000_o176_0_S8x2048 : S400x10000.Slices ![176, 0] S8x2048
  slices_S400x1_o176_0_S8x1 : S400x1.Slices ![176, 0] S8x1
  slices_S400x10000_o184_0_S8x2048 : S400x10000.Slices ![184, 0] S8x2048
  slices_S400x1_o184_0_S8x1 : S400x1.Slices ![184, 0] S8x1
  slices_S400x10000_o192_0_S8x2048 : S400x10000.Slices ![192, 0] S8x2048
  slices_S400x1_o192_0_S8x1 : S400x1.Slices ![192, 0] S8x1
  slices_S400x10000_o200_0_S8x2048 : S400x10000.Slices ![200, 0] S8x2048
  slices_S400x1_o200_0_S8x1 : S400x1.Slices ![200, 0] S8x1
  slices_S400x10000_o208_0_S8x2048 : S400x10000.Slices ![208, 0] S8x2048
  slices_S400x1_o208_0_S8x1 : S400x1.Slices ![208, 0] S8x1
  slices_S400x10000_o216_0_S8x2048 : S400x10000.Slices ![216, 0] S8x2048
  slices_S400x1_o216_0_S8x1 : S400x1.Slices ![216, 0] S8x1
  slices_S400x10000_o224_0_S8x2048 : S400x10000.Slices ![224, 0] S8x2048
  slices_S400x1_o224_0_S8x1 : S400x1.Slices ![224, 0] S8x1
  slices_S400x10000_o232_0_S8x2048 : S400x10000.Slices ![232, 0] S8x2048
  slices_S400x1_o232_0_S8x1 : S400x1.Slices ![232, 0] S8x1
  slices_S400x10000_o240_0_S8x2048 : S400x10000.Slices ![240, 0] S8x2048
  slices_S400x1_o240_0_S8x1 : S400x1.Slices ![240, 0] S8x1
  slices_S400x10000_o248_0_S8x2048 : S400x10000.Slices ![248, 0] S8x2048
  slices_S400x1_o248_0_S8x1 : S400x1.Slices ![248, 0] S8x1
  slices_S400x10000_o256_0_S8x2048 : S400x10000.Slices ![256, 0] S8x2048
  slices_S400x1_o256_0_S8x1 : S400x1.Slices ![256, 0] S8x1
  slices_S400x10000_o264_0_S8x2048 : S400x10000.Slices ![264, 0] S8x2048
  slices_S400x1_o264_0_S8x1 : S400x1.Slices ![264, 0] S8x1
  slices_S400x10000_o272_0_S8x2048 : S400x10000.Slices ![272, 0] S8x2048
  slices_S400x1_o272_0_S8x1 : S400x1.Slices ![272, 0] S8x1
  slices_S400x10000_o280_0_S8x2048 : S400x10000.Slices ![280, 0] S8x2048
  slices_S400x1_o280_0_S8x1 : S400x1.Slices ![280, 0] S8x1
  slices_S400x10000_o288_0_S8x2048 : S400x10000.Slices ![288, 0] S8x2048
  slices_S400x1_o288_0_S8x1 : S400x1.Slices ![288, 0] S8x1
  slices_S400x10000_o296_0_S8x2048 : S400x10000.Slices ![296, 0] S8x2048
  slices_S400x1_o296_0_S8x1 : S400x1.Slices ![296, 0] S8x1
  slices_S400x10000_o304_0_S8x2048 : S400x10000.Slices ![304, 0] S8x2048
  slices_S400x1_o304_0_S8x1 : S400x1.Slices ![304, 0] S8x1
  slices_S400x10000_o312_0_S8x2048 : S400x10000.Slices ![312, 0] S8x2048
  slices_S400x1_o312_0_S8x1 : S400x1.Slices ![312, 0] S8x1
  slices_S400x10000_o320_0_S8x2048 : S400x10000.Slices ![320, 0] S8x2048
  slices_S400x1_o320_0_S8x1 : S400x1.Slices ![320, 0] S8x1
  slices_S400x10000_o328_0_S8x2048 : S400x10000.Slices ![328, 0] S8x2048
  slices_S400x1_o328_0_S8x1 : S400x1.Slices ![328, 0] S8x1
  slices_S400x10000_o336_0_S8x2048 : S400x10000.Slices ![336, 0] S8x2048
  slices_S400x1_o336_0_S8x1 : S400x1.Slices ![336, 0] S8x1
  slices_S400x10000_o344_0_S8x2048 : S400x10000.Slices ![344, 0] S8x2048
  slices_S400x1_o344_0_S8x1 : S400x1.Slices ![344, 0] S8x1
  slices_S400x10000_o352_0_S8x2048 : S400x10000.Slices ![352, 0] S8x2048
  slices_S400x1_o352_0_S8x1 : S400x1.Slices ![352, 0] S8x1
  slices_S400x10000_o360_0_S8x2048 : S400x10000.Slices ![360, 0] S8x2048
  slices_S400x1_o360_0_S8x1 : S400x1.Slices ![360, 0] S8x1
  slices_S400x10000_o368_0_S8x2048 : S400x10000.Slices ![368, 0] S8x2048
  slices_S400x1_o368_0_S8x1 : S400x1.Slices ![368, 0] S8x1
  slices_S400x10000_o376_0_S8x2048 : S400x10000.Slices ![376, 0] S8x2048
  slices_S400x1_o376_0_S8x1 : S400x1.Slices ![376, 0] S8x1
  slices_S400x10000_o384_0_S8x2048 : S400x10000.Slices ![384, 0] S8x2048
  slices_S400x1_o384_0_S8x1 : S400x1.Slices ![384, 0] S8x1
  slices_S400x10000_o392_0_S8x2048 : S400x10000.Slices ![392, 0] S8x2048
  slices_S400x1_o392_0_S8x1 : S400x1.Slices ![392, 0] S8x1
  inb_S8x10000_S8x2048_0_0 : ∀ a, (![0, 0] : Fin 2 → Nat) a + S8x2048.size a ≤ S8x10000.size a
  h_S8x2048 : 0 < S8x2048.numel
  shapeCasts_S8x2048_S8x2048 : S8x2048.ShapeCasts S8x2048
  slices_S400x10000_o0_2048_S8x2048 : S400x10000.Slices ![0, 2048] S8x2048
  slices_S400x10000_o8_2048_S8x2048 : S400x10000.Slices ![8, 2048] S8x2048
  slices_S400x10000_o16_2048_S8x2048 : S400x10000.Slices ![16, 2048] S8x2048
  slices_S400x10000_o24_2048_S8x2048 : S400x10000.Slices ![24, 2048] S8x2048
  slices_S400x10000_o32_2048_S8x2048 : S400x10000.Slices ![32, 2048] S8x2048
  slices_S400x10000_o40_2048_S8x2048 : S400x10000.Slices ![40, 2048] S8x2048
  slices_S400x10000_o48_2048_S8x2048 : S400x10000.Slices ![48, 2048] S8x2048
  slices_S400x10000_o56_2048_S8x2048 : S400x10000.Slices ![56, 2048] S8x2048
  slices_S400x10000_o64_2048_S8x2048 : S400x10000.Slices ![64, 2048] S8x2048
  slices_S400x10000_o72_2048_S8x2048 : S400x10000.Slices ![72, 2048] S8x2048
  slices_S400x10000_o80_2048_S8x2048 : S400x10000.Slices ![80, 2048] S8x2048
  slices_S400x10000_o88_2048_S8x2048 : S400x10000.Slices ![88, 2048] S8x2048
  slices_S400x10000_o96_2048_S8x2048 : S400x10000.Slices ![96, 2048] S8x2048
  slices_S400x10000_o104_2048_S8x2048 : S400x10000.Slices ![104, 2048] S8x2048
  slices_S400x10000_o112_2048_S8x2048 : S400x10000.Slices ![112, 2048] S8x2048
  slices_S400x10000_o120_2048_S8x2048 : S400x10000.Slices ![120, 2048] S8x2048
  slices_S400x10000_o128_2048_S8x2048 : S400x10000.Slices ![128, 2048] S8x2048
  slices_S400x10000_o136_2048_S8x2048 : S400x10000.Slices ![136, 2048] S8x2048
  slices_S400x10000_o144_2048_S8x2048 : S400x10000.Slices ![144, 2048] S8x2048
  slices_S400x10000_o152_2048_S8x2048 : S400x10000.Slices ![152, 2048] S8x2048
  slices_S400x10000_o160_2048_S8x2048 : S400x10000.Slices ![160, 2048] S8x2048
  slices_S400x10000_o168_2048_S8x2048 : S400x10000.Slices ![168, 2048] S8x2048
  slices_S400x10000_o176_2048_S8x2048 : S400x10000.Slices ![176, 2048] S8x2048
  slices_S400x10000_o184_2048_S8x2048 : S400x10000.Slices ![184, 2048] S8x2048
  slices_S400x10000_o192_2048_S8x2048 : S400x10000.Slices ![192, 2048] S8x2048
  slices_S400x10000_o200_2048_S8x2048 : S400x10000.Slices ![200, 2048] S8x2048
  slices_S400x10000_o208_2048_S8x2048 : S400x10000.Slices ![208, 2048] S8x2048
  slices_S400x10000_o216_2048_S8x2048 : S400x10000.Slices ![216, 2048] S8x2048
  slices_S400x10000_o224_2048_S8x2048 : S400x10000.Slices ![224, 2048] S8x2048
  slices_S400x10000_o232_2048_S8x2048 : S400x10000.Slices ![232, 2048] S8x2048
  slices_S400x10000_o240_2048_S8x2048 : S400x10000.Slices ![240, 2048] S8x2048
  slices_S400x10000_o248_2048_S8x2048 : S400x10000.Slices ![248, 2048] S8x2048
  slices_S400x10000_o256_2048_S8x2048 : S400x10000.Slices ![256, 2048] S8x2048
  slices_S400x10000_o264_2048_S8x2048 : S400x10000.Slices ![264, 2048] S8x2048
  slices_S400x10000_o272_2048_S8x2048 : S400x10000.Slices ![272, 2048] S8x2048
  slices_S400x10000_o280_2048_S8x2048 : S400x10000.Slices ![280, 2048] S8x2048
  slices_S400x10000_o288_2048_S8x2048 : S400x10000.Slices ![288, 2048] S8x2048
  slices_S400x10000_o296_2048_S8x2048 : S400x10000.Slices ![296, 2048] S8x2048
  slices_S400x10000_o304_2048_S8x2048 : S400x10000.Slices ![304, 2048] S8x2048
  slices_S400x10000_o312_2048_S8x2048 : S400x10000.Slices ![312, 2048] S8x2048
  slices_S400x10000_o320_2048_S8x2048 : S400x10000.Slices ![320, 2048] S8x2048
  slices_S400x10000_o328_2048_S8x2048 : S400x10000.Slices ![328, 2048] S8x2048
  slices_S400x10000_o336_2048_S8x2048 : S400x10000.Slices ![336, 2048] S8x2048
  slices_S400x10000_o344_2048_S8x2048 : S400x10000.Slices ![344, 2048] S8x2048
  slices_S400x10000_o352_2048_S8x2048 : S400x10000.Slices ![352, 2048] S8x2048
  slices_S400x10000_o360_2048_S8x2048 : S400x10000.Slices ![360, 2048] S8x2048
  slices_S400x10000_o368_2048_S8x2048 : S400x10000.Slices ![368, 2048] S8x2048
  slices_S400x10000_o376_2048_S8x2048 : S400x10000.Slices ![376, 2048] S8x2048
  slices_S400x10000_o384_2048_S8x2048 : S400x10000.Slices ![384, 2048] S8x2048
  slices_S400x10000_o392_2048_S8x2048 : S400x10000.Slices ![392, 2048] S8x2048
  inb_S8x10000_S8x2048_0_2048 : ∀ a, (![0, 2048] : Fin 2 → Nat) a + S8x2048.size a ≤ S8x10000.size a
  slices_S400x10000_o0_4096_S8x2048 : S400x10000.Slices ![0, 4096] S8x2048
  slices_S400x10000_o8_4096_S8x2048 : S400x10000.Slices ![8, 4096] S8x2048
  slices_S400x10000_o16_4096_S8x2048 : S400x10000.Slices ![16, 4096] S8x2048
  slices_S400x10000_o24_4096_S8x2048 : S400x10000.Slices ![24, 4096] S8x2048
  slices_S400x10000_o32_4096_S8x2048 : S400x10000.Slices ![32, 4096] S8x2048
  slices_S400x10000_o40_4096_S8x2048 : S400x10000.Slices ![40, 4096] S8x2048
  slices_S400x10000_o48_4096_S8x2048 : S400x10000.Slices ![48, 4096] S8x2048
  slices_S400x10000_o56_4096_S8x2048 : S400x10000.Slices ![56, 4096] S8x2048
  slices_S400x10000_o64_4096_S8x2048 : S400x10000.Slices ![64, 4096] S8x2048
  slices_S400x10000_o72_4096_S8x2048 : S400x10000.Slices ![72, 4096] S8x2048
  slices_S400x10000_o80_4096_S8x2048 : S400x10000.Slices ![80, 4096] S8x2048
  slices_S400x10000_o88_4096_S8x2048 : S400x10000.Slices ![88, 4096] S8x2048
  slices_S400x10000_o96_4096_S8x2048 : S400x10000.Slices ![96, 4096] S8x2048
  slices_S400x10000_o104_4096_S8x2048 : S400x10000.Slices ![104, 4096] S8x2048
  slices_S400x10000_o112_4096_S8x2048 : S400x10000.Slices ![112, 4096] S8x2048
  slices_S400x10000_o120_4096_S8x2048 : S400x10000.Slices ![120, 4096] S8x2048
  slices_S400x10000_o128_4096_S8x2048 : S400x10000.Slices ![128, 4096] S8x2048
  slices_S400x10000_o136_4096_S8x2048 : S400x10000.Slices ![136, 4096] S8x2048
  slices_S400x10000_o144_4096_S8x2048 : S400x10000.Slices ![144, 4096] S8x2048
  slices_S400x10000_o152_4096_S8x2048 : S400x10000.Slices ![152, 4096] S8x2048
  slices_S400x10000_o160_4096_S8x2048 : S400x10000.Slices ![160, 4096] S8x2048
  slices_S400x10000_o168_4096_S8x2048 : S400x10000.Slices ![168, 4096] S8x2048
  slices_S400x10000_o176_4096_S8x2048 : S400x10000.Slices ![176, 4096] S8x2048
  slices_S400x10000_o184_4096_S8x2048 : S400x10000.Slices ![184, 4096] S8x2048
  slices_S400x10000_o192_4096_S8x2048 : S400x10000.Slices ![192, 4096] S8x2048
  slices_S400x10000_o200_4096_S8x2048 : S400x10000.Slices ![200, 4096] S8x2048
  slices_S400x10000_o208_4096_S8x2048 : S400x10000.Slices ![208, 4096] S8x2048
  slices_S400x10000_o216_4096_S8x2048 : S400x10000.Slices ![216, 4096] S8x2048
  slices_S400x10000_o224_4096_S8x2048 : S400x10000.Slices ![224, 4096] S8x2048
  slices_S400x10000_o232_4096_S8x2048 : S400x10000.Slices ![232, 4096] S8x2048
  slices_S400x10000_o240_4096_S8x2048 : S400x10000.Slices ![240, 4096] S8x2048
  slices_S400x10000_o248_4096_S8x2048 : S400x10000.Slices ![248, 4096] S8x2048
  slices_S400x10000_o256_4096_S8x2048 : S400x10000.Slices ![256, 4096] S8x2048
  slices_S400x10000_o264_4096_S8x2048 : S400x10000.Slices ![264, 4096] S8x2048
  slices_S400x10000_o272_4096_S8x2048 : S400x10000.Slices ![272, 4096] S8x2048
  slices_S400x10000_o280_4096_S8x2048 : S400x10000.Slices ![280, 4096] S8x2048
  slices_S400x10000_o288_4096_S8x2048 : S400x10000.Slices ![288, 4096] S8x2048
  slices_S400x10000_o296_4096_S8x2048 : S400x10000.Slices ![296, 4096] S8x2048
  slices_S400x10000_o304_4096_S8x2048 : S400x10000.Slices ![304, 4096] S8x2048
  slices_S400x10000_o312_4096_S8x2048 : S400x10000.Slices ![312, 4096] S8x2048
  slices_S400x10000_o320_4096_S8x2048 : S400x10000.Slices ![320, 4096] S8x2048
  slices_S400x10000_o328_4096_S8x2048 : S400x10000.Slices ![328, 4096] S8x2048
  slices_S400x10000_o336_4096_S8x2048 : S400x10000.Slices ![336, 4096] S8x2048
  slices_S400x10000_o344_4096_S8x2048 : S400x10000.Slices ![344, 4096] S8x2048
  slices_S400x10000_o352_4096_S8x2048 : S400x10000.Slices ![352, 4096] S8x2048
  slices_S400x10000_o360_4096_S8x2048 : S400x10000.Slices ![360, 4096] S8x2048
  slices_S400x10000_o368_4096_S8x2048 : S400x10000.Slices ![368, 4096] S8x2048
  slices_S400x10000_o376_4096_S8x2048 : S400x10000.Slices ![376, 4096] S8x2048
  slices_S400x10000_o384_4096_S8x2048 : S400x10000.Slices ![384, 4096] S8x2048
  slices_S400x10000_o392_4096_S8x2048 : S400x10000.Slices ![392, 4096] S8x2048
  inb_S8x10000_S8x2048_0_4096 : ∀ a, (![0, 4096] : Fin 2 → Nat) a + S8x2048.size a ≤ S8x10000.size a
  slices_S400x10000_o0_6144_S8x2048 : S400x10000.Slices ![0, 6144] S8x2048
  slices_S400x10000_o8_6144_S8x2048 : S400x10000.Slices ![8, 6144] S8x2048
  slices_S400x10000_o16_6144_S8x2048 : S400x10000.Slices ![16, 6144] S8x2048
  slices_S400x10000_o24_6144_S8x2048 : S400x10000.Slices ![24, 6144] S8x2048
  slices_S400x10000_o32_6144_S8x2048 : S400x10000.Slices ![32, 6144] S8x2048
  slices_S400x10000_o40_6144_S8x2048 : S400x10000.Slices ![40, 6144] S8x2048
  slices_S400x10000_o48_6144_S8x2048 : S400x10000.Slices ![48, 6144] S8x2048
  slices_S400x10000_o56_6144_S8x2048 : S400x10000.Slices ![56, 6144] S8x2048
  slices_S400x10000_o64_6144_S8x2048 : S400x10000.Slices ![64, 6144] S8x2048
  slices_S400x10000_o72_6144_S8x2048 : S400x10000.Slices ![72, 6144] S8x2048
  slices_S400x10000_o80_6144_S8x2048 : S400x10000.Slices ![80, 6144] S8x2048
  slices_S400x10000_o88_6144_S8x2048 : S400x10000.Slices ![88, 6144] S8x2048
  slices_S400x10000_o96_6144_S8x2048 : S400x10000.Slices ![96, 6144] S8x2048
  slices_S400x10000_o104_6144_S8x2048 : S400x10000.Slices ![104, 6144] S8x2048
  slices_S400x10000_o112_6144_S8x2048 : S400x10000.Slices ![112, 6144] S8x2048
  slices_S400x10000_o120_6144_S8x2048 : S400x10000.Slices ![120, 6144] S8x2048
  slices_S400x10000_o128_6144_S8x2048 : S400x10000.Slices ![128, 6144] S8x2048
  slices_S400x10000_o136_6144_S8x2048 : S400x10000.Slices ![136, 6144] S8x2048
  slices_S400x10000_o144_6144_S8x2048 : S400x10000.Slices ![144, 6144] S8x2048
  slices_S400x10000_o152_6144_S8x2048 : S400x10000.Slices ![152, 6144] S8x2048
  slices_S400x10000_o160_6144_S8x2048 : S400x10000.Slices ![160, 6144] S8x2048
  slices_S400x10000_o168_6144_S8x2048 : S400x10000.Slices ![168, 6144] S8x2048
  slices_S400x10000_o176_6144_S8x2048 : S400x10000.Slices ![176, 6144] S8x2048
  slices_S400x10000_o184_6144_S8x2048 : S400x10000.Slices ![184, 6144] S8x2048
  slices_S400x10000_o192_6144_S8x2048 : S400x10000.Slices ![192, 6144] S8x2048
  slices_S400x10000_o200_6144_S8x2048 : S400x10000.Slices ![200, 6144] S8x2048
  slices_S400x10000_o208_6144_S8x2048 : S400x10000.Slices ![208, 6144] S8x2048
  slices_S400x10000_o216_6144_S8x2048 : S400x10000.Slices ![216, 6144] S8x2048
  slices_S400x10000_o224_6144_S8x2048 : S400x10000.Slices ![224, 6144] S8x2048
  slices_S400x10000_o232_6144_S8x2048 : S400x10000.Slices ![232, 6144] S8x2048
  slices_S400x10000_o240_6144_S8x2048 : S400x10000.Slices ![240, 6144] S8x2048
  slices_S400x10000_o248_6144_S8x2048 : S400x10000.Slices ![248, 6144] S8x2048
  slices_S400x10000_o256_6144_S8x2048 : S400x10000.Slices ![256, 6144] S8x2048
  slices_S400x10000_o264_6144_S8x2048 : S400x10000.Slices ![264, 6144] S8x2048
  slices_S400x10000_o272_6144_S8x2048 : S400x10000.Slices ![272, 6144] S8x2048
  slices_S400x10000_o280_6144_S8x2048 : S400x10000.Slices ![280, 6144] S8x2048
  slices_S400x10000_o288_6144_S8x2048 : S400x10000.Slices ![288, 6144] S8x2048
  slices_S400x10000_o296_6144_S8x2048 : S400x10000.Slices ![296, 6144] S8x2048
  slices_S400x10000_o304_6144_S8x2048 : S400x10000.Slices ![304, 6144] S8x2048
  slices_S400x10000_o312_6144_S8x2048 : S400x10000.Slices ![312, 6144] S8x2048
  slices_S400x10000_o320_6144_S8x2048 : S400x10000.Slices ![320, 6144] S8x2048
  slices_S400x10000_o328_6144_S8x2048 : S400x10000.Slices ![328, 6144] S8x2048
  slices_S400x10000_o336_6144_S8x2048 : S400x10000.Slices ![336, 6144] S8x2048
  slices_S400x10000_o344_6144_S8x2048 : S400x10000.Slices ![344, 6144] S8x2048
  slices_S400x10000_o352_6144_S8x2048 : S400x10000.Slices ![352, 6144] S8x2048
  slices_S400x10000_o360_6144_S8x2048 : S400x10000.Slices ![360, 6144] S8x2048
  slices_S400x10000_o368_6144_S8x2048 : S400x10000.Slices ![368, 6144] S8x2048
  slices_S400x10000_o376_6144_S8x2048 : S400x10000.Slices ![376, 6144] S8x2048
  slices_S400x10000_o384_6144_S8x2048 : S400x10000.Slices ![384, 6144] S8x2048
  slices_S400x10000_o392_6144_S8x2048 : S400x10000.Slices ![392, 6144] S8x2048
  inb_S8x10000_S8x2048_0_6144 : ∀ a, (![0, 6144] : Fin 2 → Nat) a + S8x2048.size a ≤ S8x10000.size a
  slices_S400x10000_o0_8192_S8x1808 : S400x10000.Slices ![0, 8192] S8x1808
  broadcasts_S8x1_S8x1808 : S8x1.Broadcasts S8x1808
  slices_S400x10000_o8_8192_S8x1808 : S400x10000.Slices ![8, 8192] S8x1808
  slices_S400x10000_o16_8192_S8x1808 : S400x10000.Slices ![16, 8192] S8x1808
  slices_S400x10000_o24_8192_S8x1808 : S400x10000.Slices ![24, 8192] S8x1808
  slices_S400x10000_o32_8192_S8x1808 : S400x10000.Slices ![32, 8192] S8x1808
  slices_S400x10000_o40_8192_S8x1808 : S400x10000.Slices ![40, 8192] S8x1808
  slices_S400x10000_o48_8192_S8x1808 : S400x10000.Slices ![48, 8192] S8x1808
  slices_S400x10000_o56_8192_S8x1808 : S400x10000.Slices ![56, 8192] S8x1808
  slices_S400x10000_o64_8192_S8x1808 : S400x10000.Slices ![64, 8192] S8x1808
  slices_S400x10000_o72_8192_S8x1808 : S400x10000.Slices ![72, 8192] S8x1808
  slices_S400x10000_o80_8192_S8x1808 : S400x10000.Slices ![80, 8192] S8x1808
  slices_S400x10000_o88_8192_S8x1808 : S400x10000.Slices ![88, 8192] S8x1808
  slices_S400x10000_o96_8192_S8x1808 : S400x10000.Slices ![96, 8192] S8x1808
  slices_S400x10000_o104_8192_S8x1808 : S400x10000.Slices ![104, 8192] S8x1808
  slices_S400x10000_o112_8192_S8x1808 : S400x10000.Slices ![112, 8192] S8x1808
  slices_S400x10000_o120_8192_S8x1808 : S400x10000.Slices ![120, 8192] S8x1808
  slices_S400x10000_o128_8192_S8x1808 : S400x10000.Slices ![128, 8192] S8x1808
  slices_S400x10000_o136_8192_S8x1808 : S400x10000.Slices ![136, 8192] S8x1808
  slices_S400x10000_o144_8192_S8x1808 : S400x10000.Slices ![144, 8192] S8x1808
  slices_S400x10000_o152_8192_S8x1808 : S400x10000.Slices ![152, 8192] S8x1808
  slices_S400x10000_o160_8192_S8x1808 : S400x10000.Slices ![160, 8192] S8x1808
  slices_S400x10000_o168_8192_S8x1808 : S400x10000.Slices ![168, 8192] S8x1808
  slices_S400x10000_o176_8192_S8x1808 : S400x10000.Slices ![176, 8192] S8x1808
  slices_S400x10000_o184_8192_S8x1808 : S400x10000.Slices ![184, 8192] S8x1808
  slices_S400x10000_o192_8192_S8x1808 : S400x10000.Slices ![192, 8192] S8x1808
  slices_S400x10000_o200_8192_S8x1808 : S400x10000.Slices ![200, 8192] S8x1808
  slices_S400x10000_o208_8192_S8x1808 : S400x10000.Slices ![208, 8192] S8x1808
  slices_S400x10000_o216_8192_S8x1808 : S400x10000.Slices ![216, 8192] S8x1808
  slices_S400x10000_o224_8192_S8x1808 : S400x10000.Slices ![224, 8192] S8x1808
  slices_S400x10000_o232_8192_S8x1808 : S400x10000.Slices ![232, 8192] S8x1808
  slices_S400x10000_o240_8192_S8x1808 : S400x10000.Slices ![240, 8192] S8x1808
  slices_S400x10000_o248_8192_S8x1808 : S400x10000.Slices ![248, 8192] S8x1808
  slices_S400x10000_o256_8192_S8x1808 : S400x10000.Slices ![256, 8192] S8x1808
  slices_S400x10000_o264_8192_S8x1808 : S400x10000.Slices ![264, 8192] S8x1808
  slices_S400x10000_o272_8192_S8x1808 : S400x10000.Slices ![272, 8192] S8x1808
  slices_S400x10000_o280_8192_S8x1808 : S400x10000.Slices ![280, 8192] S8x1808
  slices_S400x10000_o288_8192_S8x1808 : S400x10000.Slices ![288, 8192] S8x1808
  slices_S400x10000_o296_8192_S8x1808 : S400x10000.Slices ![296, 8192] S8x1808
  slices_S400x10000_o304_8192_S8x1808 : S400x10000.Slices ![304, 8192] S8x1808
  slices_S400x10000_o312_8192_S8x1808 : S400x10000.Slices ![312, 8192] S8x1808
  slices_S400x10000_o320_8192_S8x1808 : S400x10000.Slices ![320, 8192] S8x1808
  slices_S400x10000_o328_8192_S8x1808 : S400x10000.Slices ![328, 8192] S8x1808
  slices_S400x10000_o336_8192_S8x1808 : S400x10000.Slices ![336, 8192] S8x1808
  slices_S400x10000_o344_8192_S8x1808 : S400x10000.Slices ![344, 8192] S8x1808
  slices_S400x10000_o352_8192_S8x1808 : S400x10000.Slices ![352, 8192] S8x1808
  slices_S400x10000_o360_8192_S8x1808 : S400x10000.Slices ![360, 8192] S8x1808
  slices_S400x10000_o368_8192_S8x1808 : S400x10000.Slices ![368, 8192] S8x1808
  slices_S400x10000_o376_8192_S8x1808 : S400x10000.Slices ![376, 8192] S8x1808
  slices_S400x10000_o384_8192_S8x1808 : S400x10000.Slices ![384, 8192] S8x1808
  slices_S400x10000_o392_8192_S8x1808 : S400x10000.Slices ![392, 8192] S8x1808
  inb_S8x10000_S8x1808_0_8192 : ∀ a, (![0, 8192] : Fin 2 → Nat) a + S8x1808.size a ≤ S8x10000.size a
  h_S8x1808 : 0 < S8x1808.numel
  shapeCasts_S8x1808_S8x1808 : S8x1808.ShapeCasts S8x1808
  reduces_S8x10000_S10000 : S8x10000.Reduces [0] S10000
  shapeCasts_S10000_S1x10000 : S10000.ShapeCasts S1x10000
  reduces_S1x10000_S1 : S1x10000.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x1_S400x1_1_0_0_1_n_n_wf : DotDims.WF S400x32 S32x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x1_S400x1_1_0_0_1_n_n : DotDims S400x32 S32x1 S400x1 where
  lhsContracting := [1]
  rhsContracting := [0]
  lhsNonContracting := [0]
  rhsNonContracting := [1]
  lhsBatch := []
  rhsBatch := []
  wf := dot_S400x32_S32x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x32 : Shape := ⟨2, ![32, 32]⟩
abbrev S10000x32 : Shape := ⟨2, ![10000, 32]⟩
abbrev S_ : Shape := ⟨0, ![]⟩
abbrev S10000 : Shape := ⟨1, ![10000]⟩
abbrev S10000x1 : Shape := ⟨2, ![10000, 1]⟩
abbrev S32 : Shape := ⟨1, ![32]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x32, .f32⟩
  | .hbm, ⟨4, _⟩ => ⟨S10000x32, .f32⟩
  | .hbm, ⟨5, _⟩ => ⟨S10000x32, .f32⟩
  | .hbm, ⟨6, _⟩ => ⟨S_, .f32⟩
  | .hbm, ⟨7, _⟩ => ⟨S10000x32, .f32⟩
  | .hbm, ⟨8, _⟩ => ⟨S10000x32, .f32⟩
  | .hbm, ⟨9, _⟩ => ⟨S10000x10000, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000x1, .f32⟩
  | .hbm, ⟨18, _⟩ => ⟨S10000x32, .f32⟩
  | .hbm, ⟨19, _⟩ => ⟨S10000x32, .f32⟩
  | .hbm, ⟨20, _⟩ => ⟨S10000x32, .f32⟩
  | .hbm, ⟨21, _⟩ => ⟨S10000x32, .f32⟩
  | .hbm, ⟨22, _⟩ => ⟨S_, .f32⟩
  | .hbm, ⟨23, _⟩ => ⟨S10000x32, .f32⟩
  | .hbm, ⟨24, _⟩ => ⟨S10000x32, .f32⟩
  | .hbm, ⟨25, _⟩ => ⟨S_, .f32⟩
  | .hbm, ⟨26, _⟩ => ⟨S10000x32, .f32⟩
  | .hbm, ⟨27, _⟩ => ⟨S10000x32, .f32⟩
  | .hbm, ⟨28, _⟩ => ⟨S_, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1, .f32⟩
  | .hbm, ⟨34, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x10000_S10000x10000_1_0 : S10000x10000.Transposes [1, 0] S10000x10000
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  reducesTo_S10000x32_S32_d0 : S10000x32.ReducesTo [0] S32
  bcast_S_S32 : S_.BroadcastsInDim S32 (![] : Fin 0 → Fin S32.rank)
  slices_S32_S1_0 : S32.Slices ![0] S1
  shapeCasts_S1_S_ : S1.ShapeCasts S_
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

class Facts : Prop extends Facts₀ where

variable [Facts]
-- ==== Proof.Chunks.lean ====
/-
  The two accumulators' updates at one grid point, chunk by chunk.

  A grid point holds a block of 400 rows of the incidence array and, per row, the node's message (one column). The
  columns are cut into five chunks, at offsets 0, 2048, 4096, 6144 (2048 wide) and 8192 (1808 wide). For a chunk at
  offset `o`, each accumulator row `r` (of eight) and local column `j`, the update adds to the old entry the sum over the
  fifty row groups `k` of `block (8 k + r, o + j) * message (8 k + r)` (the gathered sums) or of `block (8 k + r, o + j)`
  (the degrees), the terms added in the order `k = 0, 1, …, 49`. Each definition below names that update as the program's
  own operations compose it: a function of the block, the edge messages, the second weight's column and the chunk's old
  contents.
-/
import proofs.«165421_g10213432229972_week1_w1_594_27_alg».proof.Proof.Gen.KernelIdeal.Skeleton

noncomputable section

open Idealize.ShloMosaic Idealize.SL.Sem

namespace Cert.KernelIdeal.Accum

open Cert.KernelIdeal Cert.KernelIdeal.Gen

variable {F : FTy → Type} [FloatOps F]

/-- Chunk 0 (columns 0 to 2047) of the gathered sums after one more block. -/
def sumUpd0 (blk : Vec F S400x10000 .f32) (xm : Vec F S10000x32 .f32) (w : Vec F S32x1 .f32) (old : Vec F S8x2048 .f32) : FVec F S8x2048 .f32 :=
  k0_pay65 blk (k0_pay5 blk xm w) (k0_pay59 blk (k0_pay5 blk xm w) (k0_pay47 blk (k0_pay5 blk xm w) (k0_pay35 blk (k0_pay5 blk xm w) (k0_pay23 blk (k0_pay5 blk xm w) (k0_pay11 blk xm w) (k0_pay13 blk)) (k0_pay25 blk)) (k0_pay37 blk)) (k0_pay49 blk)) (k0_pay61 blk) old

/-- Chunk 1 (columns 2048 to 4095) of the gathered sums after one more block. -/
def sumUpd1 (blk : Vec F S400x10000 .f32) (xm : Vec F S10000x32 .f32) (w : Vec F S32x1 .f32) (old : Vec F S8x2048 .f32) : FVec F S8x2048 .f32 :=
  k0_pay126 blk (k0_pay5 blk xm w) (k0_pay117 blk (k0_pay5 blk xm w) (k0_pay105 blk (k0_pay5 blk xm w) (k0_pay93 blk (k0_pay5 blk xm w) (k0_pay81 blk (k0_pay5 blk xm w) (k0_pay69 blk (k0_pay5 blk xm w)))))) old

/-- Chunk 2 (columns 4096 to 6143) of the gathered sums after one more block. -/
def sumUpd2 (blk : Vec F S400x10000 .f32) (xm : Vec F S10000x32 .f32) (w : Vec F S32x1 .f32) (old : Vec F S8x2048 .f32) : FVec F S8x2048 .f32 :=
  k0_pay188 (k0_pay187 blk (k0_pay5 blk xm w) (k0_pay175 blk (k0_pay5 blk xm w) (k0_pay163 blk (k0_pay5 blk xm w) (k0_pay151 blk (k0_pay5 blk xm w) (k0_pay139 blk (k0_pay5 blk xm w)))))) old

/-- Chunk 3 (columns 6144 to 8191) of the gathered sums after one more block. -/
def sumUpd3 (blk : Vec F S400x10000 .f32) (xm : Vec F S10000x32 .f32) (w : Vec F S32x1 .f32) (old : Vec F S8x2048 .f32) : FVec F S8x2048 .f32 :=
  k0_pay254 blk (k0_pay5 blk xm w) (k0_pay247 blk (k0_pay5 blk xm w) (k0_pay234 blk (k0_pay5 blk xm w) (k0_pay221 blk (k0_pay5 blk xm w) (k0_pay208 blk (k0_pay5 blk xm w) (k0_pay195 blk (k0_pay5 blk xm w)) (k0_pay198 blk (k0_pay5 blk xm w))) (k0_pay211 blk (k0_pay5 blk xm w))) (k0_pay224 blk (k0_pay5 blk xm w))) (k0_pay237 blk (k0_pay5 blk xm w))) (k0_pay250 blk (k0_pay5 blk xm w)) old

/-- Chunk 4 (columns 8192 to 9999) of the gathered sums after one more block. -/
def sumUpd4 (blk : Vec F S400x10000 .f32) (xm : Vec F S10000x32 .f32) (w : Vec F S32x1 .f32) (old : Vec F S8x1808 .f32) : FVec F S8x1808 .f32 :=
  k0_pay320 blk (k0_pay5 blk xm w) (k0_pay310 blk (k0_pay5 blk xm w) (k0_pay297 blk (k0_pay5 blk xm w) (k0_pay284 blk (k0_pay5 blk xm w) (k0_pay271 blk (k0_pay5 blk xm w) (k0_pay258 blk (k0_pay5 blk xm w)) (k0_pay260 blk) (k0_pay261 (k0_pay5 blk xm w))) (k0_pay273 blk) (k0_pay274 (k0_pay5 blk xm w))) (k0_pay286 blk) (k0_pay287 (k0_pay5 blk xm w))) (k0_pay299 blk) (k0_pay300 (k0_pay5 blk xm w))) (k0_pay312 blk) (k0_pay313 (k0_pay5 blk xm w)) old

/-- Chunk 0 (columns 0 to 2047) of the degrees after one more block. -/
def degUpd0 (blk : Vec F S400x10000 .f32) (old : Vec F S8x2048 .f32) : FVec F S8x2048 .f32 :=
  k0_pay66 blk (k0_pay60 blk (k0_pay48 blk (k0_pay36 blk (k0_pay24 blk (k0_pay12 blk) (k0_pay13 blk)) (k0_pay25 blk)) (k0_pay37 blk)) (k0_pay49 blk)) (k0_pay61 blk) old

/-- Chunk 1 (columns 2048 to 4095) of the degrees after one more block. -/
def degUpd1 (blk : Vec F S400x10000 .f32) (old : Vec F S8x2048 .f32) : FVec F S8x2048 .f32 :=
  k0_pay128 (k0_pay127 blk (k0_pay118 blk (k0_pay106 blk (k0_pay94 blk (k0_pay82 blk (k0_pay70 blk))))) old)

/-- Chunk 2 (columns 4096 to 6143) of the degrees after one more block. -/
def degUpd2 (blk : Vec F S400x10000 .f32) (old : Vec F S8x2048 .f32) : FVec F S8x2048 .f32 :=
  k0_pay189 (k0_pay185 blk (k0_pay173 blk (k0_pay161 blk (k0_pay149 blk (k0_pay137 blk) (k0_pay138 blk)) (k0_pay150 blk)) (k0_pay162 blk)) (k0_pay174 blk)) (k0_pay186 blk) old

/-- Chunk 3 (columns 6144 to 8191) of the degrees after one more block. -/
def degUpd3 (blk : Vec F S400x10000 .f32) (old : Vec F S8x2048 .f32) : FVec F S8x2048 .f32 :=
  k0_pay255 blk (k0_pay248 blk (k0_pay235 blk (k0_pay222 blk (k0_pay209 blk (k0_pay196 blk) (k0_pay197 blk)) (k0_pay210 blk)) (k0_pay223 blk)) (k0_pay236 blk)) (k0_pay249 blk) old

/-- Chunk 4 (columns 8192 to 9999) of the degrees after one more block. -/
def degUpd4 (blk : Vec F S400x10000 .f32) (old : Vec F S8x1808 .f32) : FVec F S8x1808 .f32 :=
  k0_pay321 blk (k0_pay311 blk (k0_pay298 blk (k0_pay285 blk (k0_pay272 blk (k0_pay259 blk) (k0_pay260 blk)) (k0_pay273 blk)) (k0_pay286 blk)) (k0_pay299 blk)) (k0_pay312 blk) old

end Cert.KernelIdeal.Accum

end
-- ==== Proof.Spec.lean ====
/-
  One hypergraph layer, as a single expression over the extended reals.

  The arrays: node-by-edge incidence `B` [10000, 10000], edge features `X` [10000, 128], weights `W1` [128, 32] and
  `W2` [32, 32]. Edge messages `X W1`; node activations `max (B (X W1)) 0`; of the second weight only column 0 reaches
  the result, so a node's message is the scalar `∑ j, act n j * W2 j 0`. Each edge gathers `∑ n, B n e * msg n`, divides
  by its degree `∑ n, B n e`, takes the logistic function, and the result is the mean over the edges.

  Two spellings of that value are compared here. One divides the gathered sum by the degree; the other multiplies it by
  the reciprocal `1 / degree` and writes the logistic function out as `1 / (1 + exp (-x))`. Over the extended reals
  a quotient by a NONZERO `d` is the product with `d⁻¹`, and `1 / d` is `d⁻¹`, so the two agree wherever every degree is
  nonzero; at a zero degree with a zero gathered sum they do not (`0 / 0` against `0 * (1 / 0)`), which is why the
  degrees are assumed nonzero.

  The gathered sums are accumulated in another order by one of the programs: nodes `n = 400 t + 8 k + r` are summed over
  `k` first, then over `t`, and last over the eight residues `r`. Addition of extended reals is commutative and
  associative, so that is the same sum (`sum_by_residue`).
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals
import Mathlib.Data.Fintype.BigOperators
import Mathlib.Logic.Equiv.Fin.Basic

noncomputable section

open scoped BigOperators
open Idealize.ShloMosaic Idealize.ShloMosaic.ValueIdx

namespace Cert.Layer

/-- A natural number as an index below `N` (reduced mod `N`; only used below `N`). -/
def wrap (N : ℕ) [NeZero N] (n : ℕ) : Fin N := ⟨n % N, Nat.mod_lt _ (NeZero.pos N)⟩

theorem wrap_val_of_lt {N : ℕ} [NeZero N] {n : ℕ} (h : n < N) : (wrap N n).val = n := Nat.mod_eq_of_lt h

section
variable (B : (⟨2, ![10000, 10000]⟩ : Shape).Idx → EReal) (X : (⟨2, ![10000, 128]⟩ : Shape).Idx → EReal)
  (W1 : (⟨2, ![128, 32]⟩ : Shape).Idx → EReal) (W2 : (⟨2, ![32, 32]⟩ : Shape).Idx → EReal)

/-- Edge messages: `(X W1) e j`. -/
def edgeMsg (e : Fin 10000) (j : Fin 32) : EReal := ∑ d : Fin 128, X (ix2 e d) * W1 (ix2 d j)

/-- Node activations: `max (B (X W1)) 0` at `(n, j)`. -/
def nodeAct (n : Fin 10000) (j : Fin 32) : EReal := max (∑ e : Fin 10000, B (ix2 n e) * edgeMsg X W1 e j) 0

/-- A node's message to its edges: column 0 of `act W2`. -/
def nodeMsg (n : Fin 10000) : EReal := ∑ j : Fin 32, nodeAct B X W1 n j * W2 (ix2 j 0)

/-- What edge `e` gathers from its nodes. -/
def edgeSum (e : Fin 10000) : EReal := ∑ n : Fin 10000, B (ix2 n e) * nodeMsg B X W1 W2 n

/-- Edge `e`'s degree. -/
def edgeDeg (e : Fin 10000) : EReal := ∑ n : Fin 10000, B (ix2 n e)

/-- The layer's value: the mean over the edges of the logistic function of gathered sum over degree (`c` is the edge
    count as the programs write it). -/
def value (c : EReal) : EReal :=
  Ideal.div (∑ e : Fin 10000, Ideal.logistic (Ideal.div (edgeSum B X W1 W2 e) (edgeDeg B e))) c

/-- The same value with the reciprocal of the degree multiplied in and the logistic function written out. -/
def valueByReciprocal (c : EReal) : EReal :=
  Ideal.div (0 + ∑ e : Fin 10000,
    Ideal.div 1 (1 + Ideal.exp (-(edgeSum B X W1 W2 e * Ideal.div 1 (0 + edgeDeg B e))))) c

/-- Where every degree is nonzero the two spellings are one value. -/
theorem valueByReciprocal_eq (c : EReal) (hD : ∀ e, edgeDeg B e ≠ 0) :
    valueByReciprocal B X W1 W2 c = value B X W1 W2 c := by
  unfold valueByReciprocal value
  rw [zero_add]
  congr 1
  refine Finset.sum_congr rfl fun e _ => ?_
  -- at a nonzero degree `d`, both `u / d` and `u * (1 / d)` are `u * d⁻¹`
  have key : edgeSum B X W1 W2 e * Ideal.div 1 (0 + edgeDeg B e)
      = Ideal.div (edgeSum B X W1 W2 e) (edgeDeg B e) := by
    rw [zero_add]
    unfold Ideal.div
    rw [if_neg (hD e), if_neg (hD e), one_mul]
  rw [key]
  rfl

end

/-- The word `0x3F800000` is the number one. -/
theorem one_word : Ideal.ofBits .f32 0x3F800000#32 = 1 := by
  -- sign bit clear, exponent field 127 (the bias), fraction field 0: the value is `2^23 * 2^(127 - 127 - 23)`
  have hs : (BitVec.extractLsb' (8 + 23) 1 (0x3F800000#32) == 1#1) = false := by decide
  have he : (BitVec.extractLsb' 23 8 (0x3F800000#32)).toNat = 127 := by decide
  have hf : (BitVec.extractLsb' 0 23 (0x3F800000#32)).toNat = 0 := by decide
  simp only [Ideal.ofBits, Ideal.ieee, hs, he, hf]
  norm_num

/-- Summing over the nodes residue by residue mod 8, block of 400 by block, is summing over the nodes. -/
theorem sum_by_residue {M : Type} [AddCommMonoid M] (f : Fin 10000 → M) :
    ∑ r : Fin 8, ∑ t ∈ Finset.range 25, ∑ k ∈ Finset.range 50, f (wrap 10000 (400 * t + 8 * k + r.val)) = ∑ n, f n := by
  -- every node is uniquely `400 t + 8 k + r` with `t < 25`, `k < 50`, `r < 8`: mixed-radix digits
  let e : Fin 25 × (Fin 50 × Fin 8) ≃ Fin 10000 :=
    (Equiv.prodCongr (Equiv.refl (Fin 25)) (finProdFinEquiv (m := 50) (n := 8))).trans
      (finProdFinEquiv (m := 25) (n := 400))
  have he : ∀ (t : Fin 25) (k : Fin 50) (r : Fin 8),
      e (t, (k, r)) = wrap 10000 (400 * t.val + 8 * k.val + r.val) := by
    intro t k r
    apply Fin.ext
    rw [wrap_val_of_lt (by omega)]
    show (r.val + 8 * k.val) + 400 * t.val = _
    omega
  -- the sum over the nodes, read through the digits, outermost digit first
  have hn : ∑ n, f n
      = ∑ t : Fin 25, ∑ k : Fin 50, ∑ r : Fin 8, f (wrap 10000 (400 * t.val + 8 * k.val + r.val)) := by
    rw [← Equiv.sum_comp e f, Fintype.sum_prod_type (γ := M)]
    refine Finset.sum_congr rfl fun t _ => ?_
    rw [Fintype.sum_prod_type (γ := M)]
    refine Finset.sum_congr rfl fun k _ => ?_
    refine Finset.sum_congr rfl fun r _ => ?_
    rw [he]
  -- the range sums are sums over `Fin 25` and `Fin 50`
  have hr : ∀ r : Fin 8,
      ∑ t ∈ Finset.range 25, ∑ k ∈ Finset.range 50, f (wrap 10000 (400 * t + 8 * k + r.val))
        = ∑ t : Fin 25, ∑ k : Fin 50, f (wrap 10000 (400 * t.val + 8 * k.val + r.val)) := by
    intro r
    rw [Finset.sum_range]
    refine Finset.sum_congr rfl fun t _ => ?_
    rw [Finset.sum_range]
  rw [hn]
  simp only [hr]
  -- move the residue's sum inside, past the block's and then past the row's
  rw [Finset.sum_comm (γ := Fin 8) (α := Fin 25) (β := M)]
  refine Finset.sum_congr rfl fun t _ => ?_
  rw [Finset.sum_comm (γ := Fin 8) (α := Fin 50) (β := M)]

end Cert.Layer

end
-- ==== Proof.ChunkLib.lean ====
/-
  Three small facts about reading rank-2 arrays at an index given by its two coordinates: a block cut out at offsets
  `(a, o)` read at `(r, j)` is the array at `(a + r, o + j)`; a column broadcast along the second axis read at `(p, q)`
  is the column at `p`; and an index below one is zero.
-/
import proofs.«165421_g10213432229972_week1_w1_594_27_alg».proof.Proof.Spec
import Idealize.ShloMosaic.Lib.Pipeline.Value
import Idealize.ShloMosaic.Lib.ValueIdx

noncomputable section

open Idealize.ShloMosaic Idealize.ShloMosaic.ValueIdx

namespace Cert.Layer

/-- Below one there is only zero. -/
theorem wrap_one (n : ℕ) : wrap 1 n = (0 : Fin 1) := Subsingleton.elim _ _

/-- A block cut out of a rank-2 array at offsets `(a, o)`, read at `(r, j)`, is the array at `(a + r, o + j)`. -/
theorem slice2_apply {α : Type} {R C R' C' : ℕ} [NeZero R] [NeZero C] (a o : ℕ) (x : (⟨2, ![R, C]⟩ : Shape).Idx → α)
    (h : (⟨2, ![R, C]⟩ : Shape).Slices ![a, o] ⟨2, ![R', C']⟩) (r : Fin R') (j : Fin C') :
    extractStridedSlice ⟨2, ![R', C']⟩ ![a, o] x h (ix2 r j) = x (ix2 (wrap R (a + r.val)) (wrap C (o + j.val))) := by
  refine extractStridedSlice_apply _ x h _ _ (fun ax => ?_)
  obtain ⟨h1, h2⟩ := h
  have h0 : a + R' ≤ R := h2 0
  have h1' : o + C' ≤ C := h2 1
  match ax with
  | ⟨0, _⟩ =>
    show (wrap R (a + r.val)).val = a + r.val
    exact wrap_val_of_lt (by have := r.isLt; omega)
  | ⟨1, _⟩ =>
    show (wrap C (o + j.val)).val = o + j.val
    exact wrap_val_of_lt (by have := j.isLt; omega)

/-- A column `[A, 1]` broadcast along the second axis, read at `(p, q)`, is the column at `p`. -/
theorem bcastCol_apply {α : Type} {A B : ℕ} (v : (⟨2, ![A, 1]⟩ : Shape).Idx → α)
    (h : (⟨2, ![A, 1]⟩ : Shape).Broadcasts ⟨2, ![A, B]⟩) (p : Fin A) (q : Fin B) :
    broadcastTo ⟨2, ![A, B]⟩ v h (ix2 p q) = v (ix2 p (0 : Fin 1)) := by
  refine broadcastTo_apply v h _ _ (fun ax => ?_)
  match ax with
  | ⟨0, _⟩ =>
    show p.val = if A = 1 then 0 else p.val
    by_cases hA : A = 1
    · rw [if_pos hA]; have := p.isLt; omega
    · rw [if_neg hA]
  | ⟨1, _⟩ => exact (if_pos rfl).symm

end Cert.Layer

end
-- ==== Proof.ChunkSum.lean ====
/-
  The gathered sums' update at one grid point, read at an index.

  For the chunk at column offset `o`, accumulator row `r` and local column `j`, the update is the old entry plus the sum
  over the fifty row groups `k` of `block (8 k + r, o + j) * message (8 k + r)`: every operation of the chain reads
  through at the index (a slice shifts it by its offsets, the message column's broadcast forgets the column), and the
  chain adds the groups in the order `k = 0, …, 49`, which is the order a sum over a range unfolds in.
-/
import proofs.«165421_g10213432229972_week1_w1_594_27_alg».proof.Proof.Chunks
import proofs.«165421_g10213432229972_week1_w1_594_27_alg».proof.Proof.ChunkLib

set_option maxRecDepth 16384

noncomputable section

open scoped BigOperators
open Idealize.ShloMosaic Idealize.ShloMosaic.ValueIdx Idealize.SL.Sem

namespace Cert.KernelIdeal.Accum

open Cert.KernelIdeal Cert.KernelIdeal.Gen Cert.Layer

/-- Chunk 0, columns 0 to 2047. -/
theorem sumUpd0_apply (blk : Vec Ideal S400x10000 .f32) (xm : Vec Ideal S10000x32 .f32) (w : Vec Ideal S32x1 .f32)
    (old : Vec Ideal S8x2048 .f32) (r : Fin 8) (j : Fin 2048) :
    sumUpd0 blk xm w old (ix2 r j) = old (ix2 r j) + ∑ k ∈ Finset.range 50,
      blk (ix2 (wrap 400 (8 * k + r.val)) (wrap 10000 (0 + j.val))) * k0_pay5 blk xm w (ix2 (wrap 400 (8 * k + r.val)) (0 : Fin 1)) := by
  unfold sumUpd0 k0_pay65 k0_pay64 k0_pay63 k0_pay62 k0_pay61 k0_pay59 k0_pay58 k0_pay57 k0_pay56 k0_pay55 k0_pay54 k0_pay53 k0_pay52 k0_pay51 k0_pay50 k0_pay49 k0_pay47 k0_pay46 k0_pay45 k0_pay44 k0_pay43 k0_pay42 k0_pay41 k0_pay40 k0_pay39 k0_pay38 k0_pay37 k0_pay35 k0_pay34 k0_pay33 k0_pay32 k0_pay31 k0_pay30 k0_pay29 k0_pay28 k0_pay27 k0_pay26 k0_pay25 k0_pay23 k0_pay22 k0_pay21 k0_pay20 k0_pay19 k0_pay18 k0_pay17 k0_pay16 k0_pay15 k0_pay14 k0_pay13 k0_pay11 k0_pay10 k0_pay9 k0_pay8 k0_pay7 k0_pay6
  simp only [addf_apply, mulf_apply, shapeCast_self, slice2_apply, bcastCol_apply, wrap_one]
  simp only [Finset.sum_range_succ, Finset.sum_range_zero, zero_add, Nat.reduceMul]

/-- Chunk 1, columns 2048 to 4095. -/
theorem sumUpd1_apply (blk : Vec Ideal S400x10000 .f32) (xm : Vec Ideal S10000x32 .f32) (w : Vec Ideal S32x1 .f32)
    (old : Vec Ideal S8x2048 .f32) (r : Fin 8) (j : Fin 2048) :
    sumUpd1 blk xm w old (ix2 r j) = old (ix2 r j) + ∑ k ∈ Finset.range 50,
      blk (ix2 (wrap 400 (8 * k + r.val)) (wrap 10000 (2048 + j.val))) * k0_pay5 blk xm w (ix2 (wrap 400 (8 * k + r.val)) (0 : Fin 1)) := by
  unfold sumUpd1 k0_pay126 k0_pay125 k0_pay124 k0_pay123 k0_pay122 k0_pay121 k0_pay120 k0_pay119 k0_pay117 k0_pay116 k0_pay115 k0_pay114 k0_pay113 k0_pay112 k0_pay111 k0_pay110 k0_pay109 k0_pay108 k0_pay107 k0_pay105 k0_pay104 k0_pay103 k0_pay102 k0_pay101 k0_pay100 k0_pay99 k0_pay98 k0_pay97 k0_pay96 k0_pay95 k0_pay93 k0_pay92 k0_pay91 k0_pay90 k0_pay89 k0_pay88 k0_pay87 k0_pay86 k0_pay85 k0_pay84 k0_pay83 k0_pay81 k0_pay80 k0_pay79 k0_pay78 k0_pay77 k0_pay76 k0_pay75 k0_pay74 k0_pay73 k0_pay72 k0_pay71 k0_pay69 k0_pay68 k0_pay67
  simp only [addf_apply, mulf_apply, shapeCast_self, slice2_apply, bcastCol_apply, wrap_one]
  simp only [Finset.sum_range_succ, Finset.sum_range_zero, zero_add, Nat.reduceMul]

/-- Chunk 2, columns 4096 to 6143. -/
theorem sumUpd2_apply (blk : Vec Ideal S400x10000 .f32) (xm : Vec Ideal S10000x32 .f32) (w : Vec Ideal S32x1 .f32)
    (old : Vec Ideal S8x2048 .f32) (r : Fin 8) (j : Fin 2048) :
    sumUpd2 blk xm w old (ix2 r j) = old (ix2 r j) + ∑ k ∈ Finset.range 50,
      blk (ix2 (wrap 400 (8 * k + r.val)) (wrap 10000 (4096 + j.val))) * k0_pay5 blk xm w (ix2 (wrap 400 (8 * k + r.val)) (0 : Fin 1)) := by
  unfold sumUpd2 k0_pay188 k0_pay187 k0_pay186 k0_pay184 k0_pay183 k0_pay182 k0_pay181 k0_pay180 k0_pay179 k0_pay178 k0_pay177 k0_pay176 k0_pay175 k0_pay174 k0_pay172 k0_pay171 k0_pay170 k0_pay169 k0_pay168 k0_pay167 k0_pay166 k0_pay165 k0_pay164 k0_pay163 k0_pay162 k0_pay160 k0_pay159 k0_pay158 k0_pay157 k0_pay156 k0_pay155 k0_pay154 k0_pay153 k0_pay152 k0_pay151 k0_pay150 k0_pay148 k0_pay147 k0_pay146 k0_pay145 k0_pay144 k0_pay143 k0_pay142 k0_pay141 k0_pay140 k0_pay139 k0_pay138 k0_pay136 k0_pay135 k0_pay134 k0_pay133 k0_pay132 k0_pay131 k0_pay130 k0_pay129
  simp only [addf_apply, mulf_apply, shapeCast_self, slice2_apply, bcastCol_apply, wrap_one]
  simp only [Finset.sum_range_succ, Finset.sum_range_zero, zero_add, Nat.reduceMul]

/-- Chunk 3, columns 6144 to 8191. -/
theorem sumUpd3_apply (blk : Vec Ideal S400x10000 .f32) (xm : Vec Ideal S10000x32 .f32) (w : Vec Ideal S32x1 .f32)
    (old : Vec Ideal S8x2048 .f32) (r : Fin 8) (j : Fin 2048) :
    sumUpd3 blk xm w old (ix2 r j) = old (ix2 r j) + ∑ k ∈ Finset.range 50,
      blk (ix2 (wrap 400 (8 * k + r.val)) (wrap 10000 (6144 + j.val))) * k0_pay5 blk xm w (ix2 (wrap 400 (8 * k + r.val)) (0 : Fin 1)) := by
  unfold sumUpd3 k0_pay254 k0_pay253 k0_pay252 k0_pay251 k0_pay250 k0_pay249 k0_pay247 k0_pay246 k0_pay245 k0_pay244 k0_pay243 k0_pay242 k0_pay241 k0_pay240 k0_pay239 k0_pay238 k0_pay237 k0_pay236 k0_pay234 k0_pay233 k0_pay232 k0_pay231 k0_pay230 k0_pay229 k0_pay228 k0_pay227 k0_pay226 k0_pay225 k0_pay224 k0_pay223 k0_pay221 k0_pay220 k0_pay219 k0_pay218 k0_pay217 k0_pay216 k0_pay215 k0_pay214 k0_pay213 k0_pay212 k0_pay211 k0_pay210 k0_pay208 k0_pay207 k0_pay206 k0_pay205 k0_pay204 k0_pay203 k0_pay202 k0_pay201 k0_pay200 k0_pay199 k0_pay198 k0_pay197 k0_pay195 k0_pay194 k0_pay193 k0_pay192 k0_pay191 k0_pay190
  simp only [addf_apply, mulf_apply, shapeCast_self, slice2_apply, bcastCol_apply, wrap_one]
  simp only [Finset.sum_range_succ, Finset.sum_range_zero, zero_add, Nat.reduceMul]

/-- Chunk 4, columns 8192 to 9999. -/
theorem sumUpd4_apply (blk : Vec Ideal S400x10000 .f32) (xm : Vec Ideal S10000x32 .f32) (w : Vec Ideal S32x1 .f32)
    (old : Vec Ideal S8x1808 .f32) (r : Fin 8) (j : Fin 1808) :
    sumUpd4 blk xm w old (ix2 r j) = old (ix2 r j) + ∑ k ∈ Finset.range 50,
      blk (ix2 (wrap 400 (8 * k + r.val)) (wrap 10000 (8192 + j.val))) * k0_pay5 blk xm w (ix2 (wrap 400 (8 * k + r.val)) (0 : Fin 1)) := by
  unfold sumUpd4 k0_pay320 k0_pay319 k0_pay318 k0_pay317 k0_pay316 k0_pay315 k0_pay314 k0_pay313 k0_pay312 k0_pay310 k0_pay309 k0_pay308 k0_pay307 k0_pay306 k0_pay305 k0_pay304 k0_pay303 k0_pay302 k0_pay301 k0_pay300 k0_pay299 k0_pay297 k0_pay296 k0_pay295 k0_pay294 k0_pay293 k0_pay292 k0_pay291 k0_pay290 k0_pay289 k0_pay288 k0_pay287 k0_pay286 k0_pay284 k0_pay283 k0_pay282 k0_pay281 k0_pay280 k0_pay279 k0_pay278 k0_pay277 k0_pay276 k0_pay275 k0_pay274 k0_pay273 k0_pay271 k0_pay270 k0_pay269 k0_pay268 k0_pay267 k0_pay266 k0_pay265 k0_pay264 k0_pay263 k0_pay262 k0_pay261 k0_pay260 k0_pay258 k0_pay257 k0_pay256
  simp only [addf_apply, mulf_apply, shapeCast_self, slice2_apply, bcastCol_apply, wrap_one]
  simp only [Finset.sum_range_succ, Finset.sum_range_zero, zero_add, Nat.reduceMul]

end Cert.KernelIdeal.Accum

end
-- ==== Proof.ChunkDeg.lean ====
/-
  The degrees' update at one grid point, read at an index.

  For the chunk at column offset `o`, accumulator row `r` and local column `j`, the update is the old entry plus the sum
  over the fifty row groups `k` of `block (8 k + r, o + j)`: every operation of the chain reads
  through at the index (a slice shifts it by its offsets, the message column's broadcast forgets the column), and the
  chain adds the groups in the order `k = 0, …, 49`, which is the order a sum over a range unfolds in.
-/
import proofs.«165421_g10213432229972_week1_w1_594_27_alg».proof.Proof.Chunks
import proofs.«165421_g10213432229972_week1_w1_594_27_alg».proof.Proof.ChunkLib

set_option maxRecDepth 16384

noncomputable section

open scoped BigOperators
open Idealize.ShloMosaic Idealize.ShloMosaic.ValueIdx Idealize.SL.Sem

namespace Cert.KernelIdeal.Accum

open Cert.KernelIdeal Cert.KernelIdeal.Gen Cert.Layer

/-- Chunk 0, columns 0 to 2047. -/
theorem degUpd0_apply (blk : Vec Ideal S400x10000 .f32)
    (old : Vec Ideal S8x2048 .f32) (r : Fin 8) (j : Fin 2048) :
    degUpd0 blk old (ix2 r j) = old (ix2 r j) + ∑ k ∈ Finset.range 50,
      blk (ix2 (wrap 400 (8 * k + r.val)) (wrap 10000 (0 + j.val))) := by
  unfold degUpd0 k0_pay66 k0_pay64 k0_pay63 k0_pay62 k0_pay61 k0_pay60 k0_pay58 k0_pay57 k0_pay56 k0_pay55 k0_pay54 k0_pay53 k0_pay52 k0_pay51 k0_pay50 k0_pay49 k0_pay48 k0_pay46 k0_pay45 k0_pay44 k0_pay43 k0_pay42 k0_pay41 k0_pay40 k0_pay39 k0_pay38 k0_pay37 k0_pay36 k0_pay34 k0_pay33 k0_pay32 k0_pay31 k0_pay30 k0_pay29 k0_pay28 k0_pay27 k0_pay26 k0_pay25 k0_pay24 k0_pay22 k0_pay21 k0_pay20 k0_pay19 k0_pay18 k0_pay17 k0_pay16 k0_pay15 k0_pay14 k0_pay13 k0_pay12 k0_pay10 k0_pay9 k0_pay8 k0_pay7 k0_pay6
  simp only [addf_apply, mulf_apply, shapeCast_self, slice2_apply, bcastCol_apply, wrap_one]
  simp only [Finset.sum_range_succ, Finset.sum_range_zero, zero_add, Nat.reduceMul]

/-- Chunk 1, columns 2048 to 4095. -/
theorem degUpd1_apply (blk : Vec Ideal S400x10000 .f32)
    (old : Vec Ideal S8x2048 .f32) (r : Fin 8) (j : Fin 2048) :
    degUpd1 blk old (ix2 r j) = old (ix2 r j) + ∑ k ∈ Finset.range 50,
      blk (ix2 (wrap 400 (8 * k + r.val)) (wrap 10000 (2048 + j.val))) := by
  unfold degUpd1 k0_pay128 k0_pay127 k0_pay125 k0_pay124 k0_pay123 k0_pay122 k0_pay121 k0_pay120 k0_pay119 k0_pay118 k0_pay116 k0_pay115 k0_pay114 k0_pay113 k0_pay112 k0_pay111 k0_pay110 k0_pay109 k0_pay108 k0_pay107 k0_pay106 k0_pay104 k0_pay103 k0_pay102 k0_pay101 k0_pay100 k0_pay99 k0_pay98 k0_pay97 k0_pay96 k0_pay95 k0_pay94 k0_pay92 k0_pay91 k0_pay90 k0_pay89 k0_pay88 k0_pay87 k0_pay86 k0_pay85 k0_pay84 k0_pay83 k0_pay82 k0_pay80 k0_pay79 k0_pay78 k0_pay77 k0_pay76 k0_pay75 k0_pay74 k0_pay73 k0_pay72 k0_pay71 k0_pay70 k0_pay68 k0_pay67
  simp only [addf_apply, mulf_apply, shapeCast_self, slice2_apply, bcastCol_apply, wrap_one]
  simp only [Finset.sum_range_succ, Finset.sum_range_zero, zero_add, Nat.reduceMul]

/-- Chunk 2, columns 4096 to 6143. -/
theorem degUpd2_apply (blk : Vec Ideal S400x10000 .f32)
    (old : Vec Ideal S8x2048 .f32) (r : Fin 8) (j : Fin 2048) :
    degUpd2 blk old (ix2 r j) = old (ix2 r j) + ∑ k ∈ Finset.range 50,
      blk (ix2 (wrap 400 (8 * k + r.val)) (wrap 10000 (4096 + j.val))) := by
  unfold degUpd2 k0_pay189 k0_pay186 k0_pay185 k0_pay184 k0_pay183 k0_pay182 k0_pay181 k0_pay180 k0_pay179 k0_pay178 k0_pay177 k0_pay176 k0_pay174 k0_pay173 k0_pay172 k0_pay171 k0_pay170 k0_pay169 k0_pay168 k0_pay167 k0_pay166 k0_pay165 k0_pay164 k0_pay162 k0_pay161 k0_pay160 k0_pay159 k0_pay158 k0_pay157 k0_pay156 k0_pay155 k0_pay154 k0_pay153 k0_pay152 k0_pay150 k0_pay149 k0_pay148 k0_pay147 k0_pay146 k0_pay145 k0_pay144 k0_pay143 k0_pay142 k0_pay141 k0_pay140 k0_pay138 k0_pay137 k0_pay136 k0_pay135 k0_pay134 k0_pay133 k0_pay132 k0_pay131 k0_pay130 k0_pay129
  simp only [addf_apply, mulf_apply, shapeCast_self, slice2_apply, bcastCol_apply, wrap_one]
  simp only [Finset.sum_range_succ, Finset.sum_range_zero, zero_add, Nat.reduceMul]

/-- Chunk 3, columns 6144 to 8191. -/
theorem degUpd3_apply (blk : Vec Ideal S400x10000 .f32)
    (old : Vec Ideal S8x2048 .f32) (r : Fin 8) (j : Fin 2048) :
    degUpd3 blk old (ix2 r j) = old (ix2 r j) + ∑ k ∈ Finset.range 50,
      blk (ix2 (wrap 400 (8 * k + r.val)) (wrap 10000 (6144 + j.val))) := by
  unfold degUpd3 k0_pay255 k0_pay253 k0_pay252 k0_pay251 k0_pay249 k0_pay248 k0_pay246 k0_pay245 k0_pay244 k0_pay243 k0_pay242 k0_pay241 k0_pay240 k0_pay239 k0_pay238 k0_pay236 k0_pay235 k0_pay233 k0_pay232 k0_pay231 k0_pay230 k0_pay229 k0_pay228 k0_pay227 k0_pay226 k0_pay225 k0_pay223 k0_pay222 k0_pay220 k0_pay219 k0_pay218 k0_pay217 k0_pay216 k0_pay215 k0_pay214 k0_pay213 k0_pay212 k0_pay210 k0_pay209 k0_pay207 k0_pay206 k0_pay205 k0_pay204 k0_pay203 k0_pay202 k0_pay201 k0_pay200 k0_pay199 k0_pay197 k0_pay196 k0_pay194 k0_pay193 k0_pay192 k0_pay191 k0_pay190
  simp only [addf_apply, mulf_apply, shapeCast_self, slice2_apply, bcastCol_apply, wrap_one]
  simp only [Finset.sum_range_succ, Finset.sum_range_zero, zero_add, Nat.reduceMul]

/-- Chunk 4, columns 8192 to 9999. -/
theorem degUpd4_apply (blk : Vec Ideal S400x10000 .f32)
    (old : Vec Ideal S8x1808 .f32) (r : Fin 8) (j : Fin 1808) :
    degUpd4 blk old (ix2 r j) = old (ix2 r j) + ∑ k ∈ Finset.range 50,
      blk (ix2 (wrap 400 (8 * k + r.val)) (wrap 10000 (8192 + j.val))) := by
  unfold degUpd4 k0_pay321 k0_pay319 k0_pay318 k0_pay317 k0_pay316 k0_pay315 k0_pay314 k0_pay312 k0_pay311 k0_pay309 k0_pay308 k0_pay307 k0_pay306 k0_pay305 k0_pay304 k0_pay303 k0_pay302 k0_pay301 k0_pay299 k0_pay298 k0_pay296 k0_pay295 k0_pay294 k0_pay293 k0_pay292 k0_pay291 k0_pay290 k0_pay289 k0_pay288 k0_pay286 k0_pay285 k0_pay283 k0_pay282 k0_pay281 k0_pay280 k0_pay279 k0_pay278 k0_pay277 k0_pay276 k0_pay275 k0_pay273 k0_pay272 k0_pay270 k0_pay269 k0_pay268 k0_pay267 k0_pay266 k0_pay265 k0_pay264 k0_pay263 k0_pay262 k0_pay260 k0_pay259 k0_pay257 k0_pay256
  simp only [addf_apply, mulf_apply, shapeCast_self, slice2_apply, bcastCol_apply, wrap_one]
  simp only [Finset.sum_range_succ, Finset.sum_range_zero, zero_add, Nat.reduceMul]

end Cert.KernelIdeal.Accum

end
-- ==== Proof.Pieces.lean ====
/-
  What one grid point leaves in the two accumulators, as whole arrays.

  Each accumulator `[8, 10000]` is rewritten chunk by chunk: five stores through rectangles that tile its columns
  (offsets 0, 2048, 4096, 6144 of width 2048 and 8192 of width 1808), the store for a chunk holding that chunk's update
  of what was there before. Since every store's payload is one and the same function of the ARRAY index, read through
  the store's rectangle — old entry plus the sum over the fifty row groups — the contents the five stores leave are that
  function: `sumAfter` for the gathered sums, `degAfter` for the degrees.
-/
import proofs.«165421_g10213432229972_week1_w1_594_27_alg».proof.Proof.ChunkSum
import proofs.«165421_g10213432229972_week1_w1_594_27_alg».proof.Proof.ChunkDeg
import Idealize.ShloMosaic.Lib.Pipeline.Value

set_option maxRecDepth 16384

noncomputable section

open scoped BigOperators
open Idealize.ShloMosaic Idealize.ShloMosaic.ValueIdx Idealize.SL.Sem

namespace Cert.KernelIdeal.Accum

open Cert.KernelIdeal Cert.KernelIdeal.Gen Cert.Layer

/-- The gathered sums after one more block: old entry plus, over the fifty row groups, block entry times node message. -/
def sumAfter (blk : Vec Ideal S400x10000 .f32) (xm : Vec Ideal S10000x32 .f32) (w : Vec Ideal S32x1 .f32)
    (old : Vec Ideal S8x10000 .f32) : Vec Ideal S8x10000 .f32 := fun i =>
  old i + ∑ k ∈ Finset.range 50,
    blk (ix2 (wrap 400 (8 * k + (i 0).val)) (i 1)) * k0_pay5 blk xm w (ix2 (wrap 400 (8 * k + (i 0).val)) (0 : Fin 1))

/-- The degrees after one more block: old entry plus, over the fifty row groups, the block entry. -/
def degAfter (blk : Vec Ideal S400x10000 .f32) (old : Vec Ideal S8x10000 .f32) : Vec Ideal S8x10000 .f32 := fun i =>
  old i + ∑ k ∈ Finset.range 50, blk (ix2 (wrap 400 (8 * k + (i 0).val)) (i 1))

/-- The five stores into the gathered sums, last first, each chunk's update over what the chunk held. -/
def sumPieces (blk : Vec Ideal S400x10000 .f32) (xm : Vec Ideal S10000x32 .f32) (w : Vec Ideal S32x1 .f32)
    (o0 o1 o2 o3 : Vec Ideal S8x2048 .f32) (o4 : Vec Ideal S8x1808 .f32) : List (View.Piece (Elt Ideal) S8x10000 .f32) :=
  [⟨(Rect.unit (s := S8x10000) ![0, 8192] S8x1808.size inb_S8x10000_S8x1808_0_8192), sumUpd4 blk xm w o4⟩,
   ⟨(Rect.unit (s := S8x10000) ![0, 6144] S8x2048.size inb_S8x10000_S8x2048_0_6144), sumUpd3 blk xm w o3⟩,
   ⟨(Rect.unit (s := S8x10000) ![0, 4096] S8x2048.size inb_S8x10000_S8x2048_0_4096), sumUpd2 blk xm w o2⟩,
   ⟨(Rect.unit (s := S8x10000) ![0, 2048] S8x2048.size inb_S8x10000_S8x2048_0_2048), sumUpd1 blk xm w o1⟩,
   ⟨(Rect.unit (s := S8x10000) ![0, 0] S8x2048.size inb_S8x10000_S8x2048_0_0), sumUpd0 blk xm w o0⟩]

/-- The five stores into the degrees, last first. -/
def degPieces (blk : Vec Ideal S400x10000 .f32)
    (o0 o1 o2 o3 : Vec Ideal S8x2048 .f32) (o4 : Vec Ideal S8x1808 .f32) : List (View.Piece (Elt Ideal) S8x10000 .f32) :=
  [⟨(Rect.unit (s := S8x10000) ![0, 8192] S8x1808.size inb_S8x10000_S8x1808_0_8192), degUpd4 blk o4⟩,
   ⟨(Rect.unit (s := S8x10000) ![0, 6144] S8x2048.size inb_S8x10000_S8x2048_0_6144), degUpd3 blk o3⟩,
   ⟨(Rect.unit (s := S8x10000) ![0, 4096] S8x2048.size inb_S8x10000_S8x2048_0_4096), degUpd2 blk o2⟩,
   ⟨(Rect.unit (s := S8x10000) ![0, 2048] S8x2048.size inb_S8x10000_S8x2048_0_2048), degUpd1 blk o1⟩,
   ⟨(Rect.unit (s := S8x10000) ![0, 0] S8x2048.size inb_S8x10000_S8x2048_0_0), degUpd0 blk o0⟩]

/-- A chunk's rectangle places local `(r, j)` at `(r, o + j)`. -/
theorem chunk_idx {o W : ℕ} (inb : ∀ a, (![0, o] : Fin 2 → ℕ) a + (![8, W] : Fin 2 → ℕ) a ≤ S8x10000.size a) (r : Fin 8) (j : Fin W) :
    (Rect.unit (s := S8x10000) ![0, o] ![8, W] inb).idx (ix2 r j) = ix2 r (wrap 10000 (o + j.val)) := by
  have hW : o + W ≤ 10000 := inb 1
  funext a
  apply Fin.ext
  match a with
  | ⟨0, _⟩ => show 0 + 1 * r.val = r.val; omega
  | ⟨1, _⟩ =>
    show o + 1 * j.val = (wrap 10000 (o + j.val)).val
    rw [wrap_val_of_lt (by have := j.isLt; omega)]; omega

/-- An index whose column lies in a chunk's range is under the chunk's rectangle. -/
theorem mem_chunk {o W : ℕ} (inb : ∀ a, (![0, o] : Fin 2 → ℕ) a + (![8, W] : Fin 2 → ℕ) a ≤ S8x10000.size a) (y : S8x10000.Idx)
    (h1 : o ≤ (y 1).val) (h2 : (y 1).val < o + W) : y ∈ (Rect.unit (s := S8x10000) ![0, o] ![8, W] inb).set := by
  rw [Rect.mem_set_unit]
  intro a
  match a with
  | ⟨0, _⟩ => exact ⟨Nat.zero_le _, by show (y 0).val < 0 + 8; have : (y 0).val < 8 := (y 0).isLt; omega⟩
  | ⟨1, _⟩ => exact ⟨h1, h2⟩

/-- The five chunk rectangles cover the array. -/
theorem cover_sumPieces (blk : Vec Ideal S400x10000 .f32) (xm : Vec Ideal S10000x32 .f32) (w : Vec Ideal S32x1 .f32) (o0 o1 o2 o3 : Vec Ideal S8x2048 .f32) (o4 : Vec Ideal S8x1808 .f32) (y : S8x10000.Idx) :
    ∃ p ∈ sumPieces blk xm w o0 o1 o2 o3 o4, y ∈ p.1.set := by
  have h0 : (y 0).val < 8 := (y 0).isLt
  have h1 : (y 1).val < 10000 := (y 1).isLt
  by_cases c1 : (y 1).val < 2048
  · exact ⟨⟨(Rect.unit (s := S8x10000) ![0, 0] S8x2048.size inb_S8x10000_S8x2048_0_0), sumUpd0 blk xm w o0⟩, by simp only [sumPieces, List.mem_cons, true_or, or_true], mem_chunk inb_S8x10000_S8x2048_0_0 y (by omega) (by omega)⟩
  by_cases c2 : (y 1).val < 4096
  · exact ⟨⟨(Rect.unit (s := S8x10000) ![0, 2048] S8x2048.size inb_S8x10000_S8x2048_0_2048), sumUpd1 blk xm w o1⟩, by simp only [sumPieces, List.mem_cons, true_or, or_true], mem_chunk inb_S8x10000_S8x2048_0_2048 y (by omega) (by omega)⟩
  by_cases c3 : (y 1).val < 6144
  · exact ⟨⟨(Rect.unit (s := S8x10000) ![0, 4096] S8x2048.size inb_S8x10000_S8x2048_0_4096), sumUpd2 blk xm w o2⟩, by simp only [sumPieces, List.mem_cons, true_or, or_true], mem_chunk inb_S8x10000_S8x2048_0_4096 y (by omega) (by omega)⟩
  by_cases c4 : (y 1).val < 8192
  · exact ⟨⟨(Rect.unit (s := S8x10000) ![0, 6144] S8x2048.size inb_S8x10000_S8x2048_0_6144), sumUpd3 blk xm w o3⟩, by simp only [sumPieces, List.mem_cons, true_or, or_true], mem_chunk inb_S8x10000_S8x2048_0_6144 y (by omega) (by omega)⟩
  · exact ⟨⟨(Rect.unit (s := S8x10000) ![0, 8192] S8x1808.size inb_S8x10000_S8x1808_0_8192), sumUpd4 blk xm w o4⟩, by simp only [sumPieces, List.mem_cons, true_or, or_true], mem_chunk inb_S8x10000_S8x1808_0_8192 y (by omega) (by omega)⟩

/-- The five chunk rectangles cover the array. -/
theorem cover_degPieces (blk : Vec Ideal S400x10000 .f32) (o0 o1 o2 o3 : Vec Ideal S8x2048 .f32) (o4 : Vec Ideal S8x1808 .f32) (y : S8x10000.Idx) :
    ∃ p ∈ degPieces blk o0 o1 o2 o3 o4, y ∈ p.1.set := by
  have h0 : (y 0).val < 8 := (y 0).isLt
  have h1 : (y 1).val < 10000 := (y 1).isLt
  by_cases c1 : (y 1).val < 2048
  · exact ⟨⟨(Rect.unit (s := S8x10000) ![0, 0] S8x2048.size inb_S8x10000_S8x2048_0_0), degUpd0 blk o0⟩, by simp only [degPieces, List.mem_cons, true_or, or_true], mem_chunk inb_S8x10000_S8x2048_0_0 y (by omega) (by omega)⟩
  by_cases c2 : (y 1).val < 4096
  · exact ⟨⟨(Rect.unit (s := S8x10000) ![0, 2048] S8x2048.size inb_S8x10000_S8x2048_0_2048), degUpd1 blk o1⟩, by simp only [degPieces, List.mem_cons, true_or, or_true], mem_chunk inb_S8x10000_S8x2048_0_2048 y (by omega) (by omega)⟩
  by_cases c3 : (y 1).val < 6144
  · exact ⟨⟨(Rect.unit (s := S8x10000) ![0, 4096] S8x2048.size inb_S8x10000_S8x2048_0_4096), degUpd2 blk o2⟩, by simp only [degPieces, List.mem_cons, true_or, or_true], mem_chunk inb_S8x10000_S8x2048_0_4096 y (by omega) (by omega)⟩
  by_cases c4 : (y 1).val < 8192
  · exact ⟨⟨(Rect.unit (s := S8x10000) ![0, 6144] S8x2048.size inb_S8x10000_S8x2048_0_6144), degUpd3 blk o3⟩, by simp only [degPieces, List.mem_cons, true_or, or_true], mem_chunk inb_S8x10000_S8x2048_0_6144 y (by omega) (by omega)⟩
  · exact ⟨⟨(Rect.unit (s := S8x10000) ![0, 8192] S8x1808.size inb_S8x10000_S8x1808_0_8192), degUpd4 blk o4⟩, by simp only [degPieces, List.mem_cons, true_or, or_true], mem_chunk inb_S8x10000_S8x1808_0_8192 y (by omega) (by omega)⟩

/-- The five stores leave `sumAfter`: each store's payload is that function read through the store's rectangle, and
    the rectangles cover the array. -/
theorem canon_sumPieces (blk : Vec Ideal S400x10000 .f32) (xm : Vec Ideal S10000x32 .f32) (w : Vec Ideal S32x1 .f32) (old : Vec Ideal S8x10000 .f32) :
    View.canon (sumPieces blk xm w (View.ld old (Rect.unit (s := S8x10000) ![0, 0] S8x2048.size inb_S8x10000_S8x2048_0_0)) (View.ld old (Rect.unit (s := S8x10000) ![0, 2048] S8x2048.size inb_S8x10000_S8x2048_0_2048)) (View.ld old (Rect.unit (s := S8x10000) ![0, 4096] S8x2048.size inb_S8x10000_S8x2048_0_4096)) (View.ld old (Rect.unit (s := S8x10000) ![0, 6144] S8x2048.size inb_S8x10000_S8x2048_0_6144)) (View.ld old (Rect.unit (s := S8x10000) ![0, 8192] S8x1808.size inb_S8x10000_S8x1808_0_8192))) = sumAfter blk xm w old := by
  funext y
  refine View.canon_apply_of_pieces (sumAfter blk xm w old) _ ?_ y (cover_sumPieces blk xm w _ _ _ _ _ y)
  intro p hp
  simp only [sumPieces, List.mem_cons, List.not_mem_nil, or_false] at hp
  rcases hp with rfl | rfl | rfl | rfl | rfl
  · intro x
    obtain ⟨r, j, rfl⟩ : ∃ (r : Fin 8) (j : Fin 1808), x = ix2 r j := ⟨x 0, x 1, eq_ix2 x⟩
    show sumUpd4 blk xm w (View.ld old (Rect.unit (s := S8x10000) ![0, 8192] S8x1808.size inb_S8x10000_S8x1808_0_8192)) (ix2 r j) = sumAfter blk xm w old ((Rect.unit (s := S8x10000) ![0, 8192] S8x1808.size inb_S8x10000_S8x1808_0_8192).idx (ix2 r j))
    rw [sumUpd4_apply]
    show old ((Rect.unit (s := S8x10000) ![0, 8192] S8x1808.size inb_S8x10000_S8x1808_0_8192).idx (ix2 r j)) + _ = _
    rw [chunk_idx]
    rfl
  · intro x
    obtain ⟨r, j, rfl⟩ : ∃ (r : Fin 8) (j : Fin 2048), x = ix2 r j := ⟨x 0, x 1, eq_ix2 x⟩
    show sumUpd3 blk xm w (View.ld old (Rect.unit (s := S8x10000) ![0, 6144] S8x2048.size inb_S8x10000_S8x2048_0_6144)) (ix2 r j) = sumAfter blk xm w old ((Rect.unit (s := S8x10000) ![0, 6144] S8x2048.size inb_S8x10000_S8x2048_0_6144).idx (ix2 r j))
    rw [sumUpd3_apply]
    show old ((Rect.unit (s := S8x10000) ![0, 6144] S8x2048.size inb_S8x10000_S8x2048_0_6144).idx (ix2 r j)) + _ = _
    rw [chunk_idx]
    rfl
  · intro x
    obtain ⟨r, j, rfl⟩ : ∃ (r : Fin 8) (j : Fin 2048), x = ix2 r j := ⟨x 0, x 1, eq_ix2 x⟩
    show sumUpd2 blk xm w (View.ld old (Rect.unit (s := S8x10000) ![0, 4096] S8x2048.size inb_S8x10000_S8x2048_0_4096)) (ix2 r j) = sumAfter blk xm w old ((Rect.unit (s := S8x10000) ![0, 4096] S8x2048.size inb_S8x10000_S8x2048_0_4096).idx (ix2 r j))
    rw [sumUpd2_apply]
    show old ((Rect.unit (s := S8x10000) ![0, 4096] S8x2048.size inb_S8x10000_S8x2048_0_4096).idx (ix2 r j)) + _ = _
    rw [chunk_idx]
    rfl
  · intro x
    obtain ⟨r, j, rfl⟩ : ∃ (r : Fin 8) (j : Fin 2048), x = ix2 r j := ⟨x 0, x 1, eq_ix2 x⟩
    show sumUpd1 blk xm w (View.ld old (Rect.unit (s := S8x10000) ![0, 2048] S8x2048.size inb_S8x10000_S8x2048_0_2048)) (ix2 r j) = sumAfter blk xm w old ((Rect.unit (s := S8x10000) ![0, 2048] S8x2048.size inb_S8x10000_S8x2048_0_2048).idx (ix2 r j))
    rw [sumUpd1_apply]
    show old ((Rect.unit (s := S8x10000) ![0, 2048] S8x2048.size inb_S8x10000_S8x2048_0_2048).idx (ix2 r j)) + _ = _
    rw [chunk_idx]
    rfl
  · intro x
    obtain ⟨r, j, rfl⟩ : ∃ (r : Fin 8) (j : Fin 2048), x = ix2 r j := ⟨x 0, x 1, eq_ix2 x⟩
    show sumUpd0 blk xm w (View.ld old (Rect.unit (s := S8x10000) ![0, 0] S8x2048.size inb_S8x10000_S8x2048_0_0)) (ix2 r j) = sumAfter blk xm w old ((Rect.unit (s := S8x10000) ![0, 0] S8x2048.size inb_S8x10000_S8x2048_0_0).idx (ix2 r j))
    rw [sumUpd0_apply]
    show old ((Rect.unit (s := S8x10000) ![0, 0] S8x2048.size inb_S8x10000_S8x2048_0_0).idx (ix2 r j)) + _ = _
    rw [chunk_idx]
    rfl

/-- The five stores leave `degAfter`: each store's payload is that function read through the store's rectangle, and
    the rectangles cover the array. -/
theorem canon_degPieces (blk : Vec Ideal S400x10000 .f32) (old : Vec Ideal S8x10000 .f32) :
    View.canon (degPieces blk (View.ld old (Rect.unit (s := S8x10000) ![0, 0] S8x2048.size inb_S8x10000_S8x2048_0_0)) (View.ld old (Rect.unit (s := S8x10000) ![0, 2048] S8x2048.size inb_S8x10000_S8x2048_0_2048)) (View.ld old (Rect.unit (s := S8x10000) ![0, 4096] S8x2048.size inb_S8x10000_S8x2048_0_4096)) (View.ld old (Rect.unit (s := S8x10000) ![0, 6144] S8x2048.size inb_S8x10000_S8x2048_0_6144)) (View.ld old (Rect.unit (s := S8x10000) ![0, 8192] S8x1808.size inb_S8x10000_S8x1808_0_8192))) = degAfter blk old := by
  funext y
  refine View.canon_apply_of_pieces (degAfter blk old) _ ?_ y (cover_degPieces blk _ _ _ _ _ y)
  intro p hp
  simp only [degPieces, List.mem_cons, List.not_mem_nil, or_false] at hp
  rcases hp with rfl | rfl | rfl | rfl | rfl
  · intro x
    obtain ⟨r, j, rfl⟩ : ∃ (r : Fin 8) (j : Fin 1808), x = ix2 r j := ⟨x 0, x 1, eq_ix2 x⟩
    show degUpd4 blk (View.ld old (Rect.unit (s := S8x10000) ![0, 8192] S8x1808.size inb_S8x10000_S8x1808_0_8192)) (ix2 r j) = degAfter blk old ((Rect.unit (s := S8x10000) ![0, 8192] S8x1808.size inb_S8x10000_S8x1808_0_8192).idx (ix2 r j))
    rw [degUpd4_apply]
    show old ((Rect.unit (s := S8x10000) ![0, 8192] S8x1808.size inb_S8x10000_S8x1808_0_8192).idx (ix2 r j)) + _ = _
    rw [chunk_idx]
    rfl
  · intro x
    obtain ⟨r, j, rfl⟩ : ∃ (r : Fin 8) (j : Fin 2048), x = ix2 r j := ⟨x 0, x 1, eq_ix2 x⟩
    show degUpd3 blk (View.ld old (Rect.unit (s := S8x10000) ![0, 6144] S8x2048.size inb_S8x10000_S8x2048_0_6144)) (ix2 r j) = degAfter blk old ((Rect.unit (s := S8x10000) ![0, 6144] S8x2048.size inb_S8x10000_S8x2048_0_6144).idx (ix2 r j))
    rw [degUpd3_apply]
    show old ((Rect.unit (s := S8x10000) ![0, 6144] S8x2048.size inb_S8x10000_S8x2048_0_6144).idx (ix2 r j)) + _ = _
    rw [chunk_idx]
    rfl
  · intro x
    obtain ⟨r, j, rfl⟩ : ∃ (r : Fin 8) (j : Fin 2048), x = ix2 r j := ⟨x 0, x 1, eq_ix2 x⟩
    show degUpd2 blk (View.ld old (Rect.unit (s := S8x10000) ![0, 4096] S8x2048.size inb_S8x10000_S8x2048_0_4096)) (ix2 r j) = degAfter blk old ((Rect.unit (s := S8x10000) ![0, 4096] S8x2048.size inb_S8x10000_S8x2048_0_4096).idx (ix2 r j))
    rw [degUpd2_apply]
    show old ((Rect.unit (s := S8x10000) ![0, 4096] S8x2048.size inb_S8x10000_S8x2048_0_4096).idx (ix2 r j)) + _ = _
    rw [chunk_idx]
    rfl
  · intro x
    obtain ⟨r, j, rfl⟩ : ∃ (r : Fin 8) (j : Fin 2048), x = ix2 r j := ⟨x 0, x 1, eq_ix2 x⟩
    show degUpd1 blk (View.ld old (Rect.unit (s := S8x10000) ![0, 2048] S8x2048.size inb_S8x10000_S8x2048_0_2048)) (ix2 r j) = degAfter blk old ((Rect.unit (s := S8x10000) ![0, 2048] S8x2048.size inb_S8x10000_S8x2048_0_2048).idx (ix2 r j))
    rw [degUpd1_apply]
    show old ((Rect.unit (s := S8x10000) ![0, 2048] S8x2048.size inb_S8x10000_S8x2048_0_2048).idx (ix2 r j)) + _ = _
    rw [chunk_idx]
    rfl
  · intro x
    obtain ⟨r, j, rfl⟩ : ∃ (r : Fin 8) (j : Fin 2048), x = ix2 r j := ⟨x 0, x 1, eq_ix2 x⟩
    show degUpd0 blk (View.ld old (Rect.unit (s := S8x10000) ![0, 0] S8x2048.size inb_S8x10000_S8x2048_0_0)) (ix2 r j) = degAfter blk old ((Rect.unit (s := S8x10000) ![0, 0] S8x2048.size inb_S8x10000_S8x2048_0_0).idx (ix2 r j))
    rw [degUpd0_apply]
    show old ((Rect.unit (s := S8x10000) ![0, 0] S8x2048.size inb_S8x10000_S8x2048_0_0).idx (ix2 r j)) + _ = _
    rw [chunk_idx]
    rfl

/-- Where the later stores already cover the array, an earlier store shows nowhere. -/
theorem canon_append_of_cover {S : Shape} {e : EltTy} :
    ∀ (L L' : List (View.Piece (Elt Ideal) S e)), (∀ y, ∃ p ∈ L, y ∈ p.1.set) → View.canon (L ++ L') = View.canon L := by
  intro L L' h
  funext y
  have key : ∀ (L : List (View.Piece (Elt Ideal) S e)), (∃ p ∈ L, y ∈ p.1.set) → View.canon (L ++ L') y = View.canon L y := by
    intro L
    induction L with
    | nil => rintro ⟨p, hp, _⟩; exact absurd hp List.not_mem_nil
    | cons q L ih =>
      intro hy
      by_cases hq : y ∈ q.1.set
      · obtain ⟨r, w⟩ := q
        obtain ⟨x, rfl⟩ := r.exists_idx_of_mem hq
        show View.canon (⟨r, w⟩ :: (L ++ L')) (r.emb x) = View.canon (⟨r, w⟩ :: L) (r.emb x)
        rw [View.canon_cons_emb, View.canon_cons_emb]
      · show View.canon (q :: (L ++ L')) y = View.canon (q :: L) y
        rw [View.canon_cons_of_not_mem _ _ hq, View.canon_cons_of_not_mem _ _ hq]
        apply ih
        obtain ⟨p, hp, hyp⟩ := hy
        rcases List.mem_cons.mp hp with rfl | hp'
        · exact absurd hyp hq
        · exact ⟨p, hp', hyp⟩
  exact key L (h y)

/-- The same five stores after one store of the whole array (the first point's zeroing), last first. -/
def sumPiecesZ (blk : Vec Ideal S400x10000 .f32) (xm : Vec Ideal S10000x32 .f32) (w : Vec Ideal S32x1 .f32)
    (o0 o1 o2 o3 : Vec Ideal S8x2048 .f32) (o4 : Vec Ideal S8x1808 .f32) (z : Vec Ideal S8x10000 .f32) : List (View.Piece (Elt Ideal) S8x10000 .f32) :=
  [⟨(Rect.unit (s := S8x10000) ![0, 8192] S8x1808.size inb_S8x10000_S8x1808_0_8192), sumUpd4 blk xm w o4⟩,
   ⟨(Rect.unit (s := S8x10000) ![0, 6144] S8x2048.size inb_S8x10000_S8x2048_0_6144), sumUpd3 blk xm w o3⟩,
   ⟨(Rect.unit (s := S8x10000) ![0, 4096] S8x2048.size inb_S8x10000_S8x2048_0_4096), sumUpd2 blk xm w o2⟩,
   ⟨(Rect.unit (s := S8x10000) ![0, 2048] S8x2048.size inb_S8x10000_S8x2048_0_2048), sumUpd1 blk xm w o1⟩,
   ⟨(Rect.unit (s := S8x10000) ![0, 0] S8x2048.size inb_S8x10000_S8x2048_0_0), sumUpd0 blk xm w o0⟩,
   ⟨Rect.unit (s := S8x10000) ![0, 0] S8x10000.size inb_S8x10000_S8x10000_0_0, z⟩]

/-- The earlier whole-array store shows nowhere: the five chunk stores cover it. -/
theorem canon_sumPiecesZ (blk : Vec Ideal S400x10000 .f32) (xm : Vec Ideal S10000x32 .f32) (w : Vec Ideal S32x1 .f32) (old z : Vec Ideal S8x10000 .f32) :
    View.canon (sumPiecesZ blk xm w (View.ld old (Rect.unit (s := S8x10000) ![0, 0] S8x2048.size inb_S8x10000_S8x2048_0_0)) (View.ld old (Rect.unit (s := S8x10000) ![0, 2048] S8x2048.size inb_S8x10000_S8x2048_0_2048)) (View.ld old (Rect.unit (s := S8x10000) ![0, 4096] S8x2048.size inb_S8x10000_S8x2048_0_4096)) (View.ld old (Rect.unit (s := S8x10000) ![0, 6144] S8x2048.size inb_S8x10000_S8x2048_0_6144)) (View.ld old (Rect.unit (s := S8x10000) ![0, 8192] S8x1808.size inb_S8x10000_S8x1808_0_8192)) z) = sumAfter blk xm w old := by
  have h := canon_append_of_cover (sumPieces blk xm w (View.ld old (Rect.unit (s := S8x10000) ![0, 0] S8x2048.size inb_S8x10000_S8x2048_0_0)) (View.ld old (Rect.unit (s := S8x10000) ![0, 2048] S8x2048.size inb_S8x10000_S8x2048_0_2048)) (View.ld old (Rect.unit (s := S8x10000) ![0, 4096] S8x2048.size inb_S8x10000_S8x2048_0_4096)) (View.ld old (Rect.unit (s := S8x10000) ![0, 6144] S8x2048.size inb_S8x10000_S8x2048_0_6144)) (View.ld old (Rect.unit (s := S8x10000) ![0, 8192] S8x1808.size inb_S8x10000_S8x1808_0_8192)))
    [(⟨Rect.unit (s := S8x10000) ![0, 0] S8x10000.size inb_S8x10000_S8x10000_0_0, z⟩ : View.Piece (Elt Ideal) S8x10000 .f32)] (cover_sumPieces blk xm w _ _ _ _ _)
  rw [canon_sumPieces blk xm w old] at h
  simp only [sumPieces, List.cons_append, List.nil_append] at h
  unfold sumPiecesZ
  exact h

/-- The same five stores after one store of the whole array (the first point's zeroing), last first. -/
def degPiecesZ (blk : Vec Ideal S400x10000 .f32)
    (o0 o1 o2 o3 : Vec Ideal S8x2048 .f32) (o4 : Vec Ideal S8x1808 .f32) (z : Vec Ideal S8x10000 .f32) : List (View.Piece (Elt Ideal) S8x10000 .f32) :=
  [⟨(Rect.unit (s := S8x10000) ![0, 8192] S8x1808.size inb_S8x10000_S8x1808_0_8192), degUpd4 blk o4⟩,
   ⟨(Rect.unit (s := S8x10000) ![0, 6144] S8x2048.size inb_S8x10000_S8x2048_0_6144), degUpd3 blk o3⟩,
   ⟨(Rect.unit (s := S8x10000) ![0, 4096] S8x2048.size inb_S8x10000_S8x2048_0_4096), degUpd2 blk o2⟩,
   ⟨(Rect.unit (s := S8x10000) ![0, 2048] S8x2048.size inb_S8x10000_S8x2048_0_2048), degUpd1 blk o1⟩,
   ⟨(Rect.unit (s := S8x10000) ![0, 0] S8x2048.size inb_S8x10000_S8x2048_0_0), degUpd0 blk o0⟩,
   ⟨Rect.unit (s := S8x10000) ![0, 0] S8x10000.size inb_S8x10000_S8x10000_0_0, z⟩]

/-- The earlier whole-array store shows nowhere: the five chunk stores cover it. -/
theorem canon_degPiecesZ (blk : Vec Ideal S400x10000 .f32) (old z : Vec Ideal S8x10000 .f32) :
    View.canon (degPiecesZ blk (View.ld old (Rect.unit (s := S8x10000) ![0, 0] S8x2048.size inb_S8x10000_S8x2048_0_0)) (View.ld old (Rect.unit (s := S8x10000) ![0, 2048] S8x2048.size inb_S8x10000_S8x2048_0_2048)) (View.ld old (Rect.unit (s := S8x10000) ![0, 4096] S8x2048.size inb_S8x10000_S8x2048_0_4096)) (View.ld old (Rect.unit (s := S8x10000) ![0, 6144] S8x2048.size inb_S8x10000_S8x2048_0_6144)) (View.ld old (Rect.unit (s := S8x10000) ![0, 8192] S8x1808.size inb_S8x10000_S8x1808_0_8192)) z) = degAfter blk old := by
  have h := canon_append_of_cover (degPieces blk (View.ld old (Rect.unit (s := S8x10000) ![0, 0] S8x2048.size inb_S8x10000_S8x2048_0_0)) (View.ld old (Rect.unit (s := S8x10000) ![0, 2048] S8x2048.size inb_S8x10000_S8x2048_0_2048)) (View.ld old (Rect.unit (s := S8x10000) ![0, 4096] S8x2048.size inb_S8x10000_S8x2048_0_4096)) (View.ld old (Rect.unit (s := S8x10000) ![0, 6144] S8x2048.size inb_S8x10000_S8x2048_0_6144)) (View.ld old (Rect.unit (s := S8x10000) ![0, 8192] S8x1808.size inb_S8x10000_S8x1808_0_8192)))
    [(⟨Rect.unit (s := S8x10000) ![0, 0] S8x10000.size inb_S8x10000_S8x10000_0_0, z⟩ : View.Piece (Elt Ideal) S8x10000 .f32)] (cover_degPieces blk _ _ _ _ _)
  rw [canon_degPieces blk old] at h
  simp only [degPieces, List.cons_append, List.nil_append] at h
  unfold degPiecesZ
  exact h

end Cert.KernelIdeal.Accum

end
-- ==== Proof.Cases.lean ====
/-
  What each of the three kinds of grid point leaves behind, read off the stores the body makes.

  The first point computes the edge messages `X W1` into their scratch, zeroes both accumulators and then updates them
  with its block; every later point finds the messages in place and updates the accumulators over what the point before
  left; the last point, besides, reads the two accumulators back and stores the layer's value into the output block.
  In every case the accumulators end as `sumAfter` / `degAfter` of the point's block over their previous contents
  (zero at the first point).
-/
import proofs.«165421_g10213432229972_week1_w1_594_27_alg».proof.Proof.Gen.KernelIdeal.Frame
import proofs.«165421_g10213432229972_week1_w1_594_27_alg».proof.Proof.Pieces
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.Layer

theorem hz2 : (![0, 0] : Fin 2 → Nat) = fun _ => 0 := funext fun a => by fin_cases a <;> rfl

/-- A load through a chunk's rectangle skips a later store into another chunk. -/
theorem readCov_skip {sig : RefSig} {κ : Kind} {sp : Space} (v : View sig κ sp S8x10000 .f32)
    {o' o : ℕ} {sz' sz : Fin 2 → ℕ} (inb' : ∀ a, (![0, o'] : Fin 2 → ℕ) a + sz' a ≤ S8x10000.size a)
    (inb : ∀ a, (![0, o] : Fin 2 → ℕ) a + sz a ≤ S8x10000.size a)
    (w' : (Rect.unit (s := S8x10000) ![0, o'] sz' inb').shape.Idx → Elt Ideal .f32) (L : List (View.Piece (Elt Ideal) S8x10000 .f32))
    (h : o' + sz' 1 ≤ o ∨ o + sz 1 ≤ o') :
    v.readCov (⟨Rect.unit (s := S8x10000) ![0, o'] sz' inb', w'⟩ :: L) (Rect.unit (s := S8x10000) ![0, o] sz inb).toLoadRect
      = v.readCov L (Rect.unit (s := S8x10000) ![0, o] sz inb).toLoadRect :=
  View.readCov_cons_of_disjoint v _ L _ (Rect.unit_disjoint (inb := inb') (inb' := inb) 1 h)

/-- A load through a chunk's rectangle of what ONE store of the whole array left reads that store's payload there. -/
theorem readCov_whole {sig : RefSig} {κ : Kind} {sp : Space} (v : View sig κ sp S8x10000 .f32)
    (inb0 : ∀ a, (![0, 0] : Fin 2 → ℕ) a + S8x10000.size a ≤ S8x10000.size a) (w : S8x10000.Idx → Elt Ideal .f32)
    (r : Rect S8x10000) :
    v.readCov [(⟨Rect.unit (s := S8x10000) ![0, 0] S8x10000.size inb0, w⟩ : View.Piece (Elt Ideal) S8x10000 .f32)] r.toLoadRect
      = View.ld w r := by
  rw [View.readCov_eq_canon', View.canon_unit_zero hz2]

theorem sout0_B_1_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : ¬cond0_0 i) (hc1 : ¬cond0_1 i)
    (x0 : Vec Ideal S400x10000 .f32) (x1 : Vec Ideal S10000x128 .f32) (x2 : Vec Ideal S128x32 .f32) (x3 : Vec Ideal S32x1 .f32) (xs0 : Vec Ideal S10000x32 .f32) (xs1 : Vec Ideal S8x10000 .f32) (xs2 : Vec Ideal S8x10000 .f32) :
    sout0_B_1 (F := Ideal) c i arg1 harg1 arg2 harg2 arg3 harg3 arg4 harg4 arg5 harg5 arg6 harg6 arg7 harg7 arg8 harg8 hc0 hc1 x0 x1 x2 x3 xs0 xs1 xs2 = sumAfter x0 xs0 x3 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  simp only [View.readAt_eq_ld, harg1.read_unread, harg4.read_unread, harg6.read_unread, harg7.read_unread, harg8.read_unread,
    View.ld_unit_zero (S := S400x10000) hz2, View.ld_unit_zero (S := S10000x32) hz2, View.ld_unit_zero (S := S32x1) hz2]
  exact canon_sumPieces x0 xs0 x3 xs1

theorem sout0_B_2_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : ¬cond0_0 i) (hc1 : ¬cond0_1 i)
    (x0 : Vec Ideal S400x10000 .f32) (x1 : Vec Ideal S10000x128 .f32) (x2 : Vec Ideal S128x32 .f32) (x3 : Vec Ideal S32x1 .f32) (xs0 : Vec Ideal S10000x32 .f32) (xs1 : Vec Ideal S8x10000 .f32) (xs2 : Vec Ideal S8x10000 .f32) :
    sout0_B_2 (F := Ideal) c i arg1 harg1 arg2 harg2 arg3 harg3 arg4 harg4 arg5 harg5 arg6 harg6 arg7 harg7 arg8 harg8 hc0 hc1 x0 x1 x2 x3 xs0 xs1 xs2 = degAfter x0 xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  simp only [View.readAt_eq_ld, harg1.read_unread, harg4.read_unread, harg6.read_unread, harg7.read_unread, harg8.read_unread,
    View.ld_unit_zero (S := S400x10000) hz2, View.ld_unit_zero (S := S10000x32) hz2, View.ld_unit_zero (S := S32x1) hz2]
  exact canon_degPieces x0 xs2

theorem sout0_C_1_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : ¬cond0_0 i) (hc1 : cond0_1 i)
    (x0 : Vec Ideal S400x10000 .f32) (x1 : Vec Ideal S10000x128 .f32) (x2 : Vec Ideal S128x32 .f32) (x3 : Vec Ideal S32x1 .f32) (xs0 : Vec Ideal S10000x32 .f32) (xs1 : Vec Ideal S8x10000 .f32) (xs2 : Vec Ideal S8x10000 .f32) :
    sout0_C_1 (F := Ideal) c i arg1 harg1 arg2 harg2 arg3 harg3 arg4 harg4 arg5 harg5 arg6 harg6 arg7 harg7 arg8 harg8 hc0 hc1 x0 x1 x2 x3 xs0 xs1 xs2 = sumAfter x0 xs0 x3 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  simp only [View.readAt_eq_ld, harg1.read_unread, harg4.read_unread, harg6.read_unread, harg7.read_unread, harg8.read_unread,
    View.ld_unit_zero (S := S400x10000) hz2, View.ld_unit_zero (S := S10000x32) hz2, View.ld_unit_zero (S := S32x1) hz2]
  exact canon_sumPieces x0 xs0 x3 xs1

theorem sout0_C_2_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : ¬cond0_0 i) (hc1 : cond0_1 i)
    (x0 : Vec Ideal S400x10000 .f32) (x1 : Vec Ideal S10000x128 .f32) (x2 : Vec Ideal S128x32 .f32) (x3 : Vec Ideal S32x1 .f32) (xs0 : Vec Ideal S10000x32 .f32) (xs1 : Vec Ideal S8x10000 .f32) (xs2 : Vec Ideal S8x10000 .f32) :
    sout0_C_2 (F := Ideal) c i arg1 harg1 arg2 harg2 arg3 harg3 arg4 harg4 arg5 harg5 arg6 harg6 arg7 harg7 arg8 harg8 hc0 hc1 x0 x1 x2 x3 xs0 xs1 xs2 = degAfter x0 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  simp only [View.readAt_eq_ld, harg1.read_unread, harg4.read_unread, harg6.read_unread, harg7.read_unread, harg8.read_unread,
    View.ld_unit_zero (S := S400x10000) hz2, View.ld_unit_zero (S := S10000x32) hz2, View.ld_unit_zero (S := S32x1) hz2]
  exact canon_degPieces x0 xs2

theorem out0_C_4_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : ¬cond0_0 i) (hc1 : cond0_1 i)
    (x0 : Vec Ideal S400x10000 .f32) (x1 : Vec Ideal S10000x128 .f32) (x2 : Vec Ideal S128x32 .f32) (x3 : Vec Ideal S32x1 .f32) (xs0 : Vec Ideal S10000x32 .f32) (xs1 : Vec Ideal S8x10000 .f32) (xs2 : Vec Ideal S8x10000 .f32) :
    out0_C_4 (F := Ideal) c i arg1 harg1 arg2 harg2 arg3 harg3 arg4 harg4 arg5 harg5 arg6 harg6 arg7 harg7 arg8 harg8 hc0 hc1 x0 x1 x2 x3 xs0 xs1 xs2 = k0_pay1 (sumAfter x0 xs0 x3 xs1) (degAfter x0 xs2) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz2]
  simp only [View.readAt_eq_ld, harg1.read_unread, harg4.read_unread, harg6.read_unread, harg7.read_unread, harg8.read_unread,
    View.ld_unit_zero (S := S400x10000) hz2, View.ld_unit_zero (S := S10000x32) hz2, View.ld_unit_zero (S := S32x1) hz2]
  refine congrArg₂ k0_pay1 ?_ ?_
  · rw [View.readCov_eq_canon']
    exact (View.ld_unit_zero hz2 _ _).trans (canon_sumPieces x0 xs0 x3 xs1)
  · rw [View.readCov_eq_canon']
    exact (View.ld_unit_zero hz2 _ _).trans (canon_degPieces x0 xs2)

theorem sout0_A_0_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : cond0_0 i) (hc1 : ¬cond0_1 i)
    (x0 : Vec Ideal S400x10000 .f32) (x1 : Vec Ideal S10000x128 .f32) (x2 : Vec Ideal S128x32 .f32) (x3 : Vec Ideal S32x1 .f32) :
    sout0_A_0 (F := Ideal) c i arg1 harg1 arg2 harg2 arg3 harg3 arg4 harg4 arg5 harg5 arg6 harg6 arg7 harg7 arg8 harg8 hc0 hc1 x0 x1 x2 x3 = k0_pay2 x1 x2 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S400x10000) hz2, View.ld_unit_zero (S := S10000x128) hz2, View.ld_unit_zero (S := S128x32) hz2,
    View.ld_unit_zero (S := S32x1) hz2, View.readCov_unit_zero (S := S10000x32) _ hz2]

theorem sout0_A_1_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : cond0_0 i) (hc1 : ¬cond0_1 i)
    (x0 : Vec Ideal S400x10000 .f32) (x1 : Vec Ideal S10000x128 .f32) (x2 : Vec Ideal S128x32 .f32) (x3 : Vec Ideal S32x1 .f32) :
    sout0_A_1 (F := Ideal) c i arg1 harg1 arg2 harg2 arg3 harg3 arg4 harg4 arg5 harg5 arg6 harg6 arg7 harg7 arg8 harg8 hc0 hc1 x0 x1 x2 x3 = sumAfter x0 (k0_pay2 x1 x2) x3 (k0_pay3 (F := Ideal)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  simp (disch := decide) only [View.readAt_eq_ld, harg1.read_unread, harg2.read_unread, harg3.read_unread, harg4.read_unread,
    View.ld_unit_zero (S := S400x10000) hz2, View.ld_unit_zero (S := S10000x128) hz2, View.ld_unit_zero (S := S128x32) hz2,
    View.ld_unit_zero (S := S32x1) hz2, View.readCov_unit_zero (S := S10000x32) _ hz2, readCov_skip]
  rw [readCov_whole arg7.view inb_S8x10000_S8x10000_0_0 (k0_pay3 (F := Ideal)) (Rect.unit (s := S8x10000) ![0, 0] S8x2048.size inb_S8x10000_S8x2048_0_0),
    readCov_whole arg7.view inb_S8x10000_S8x10000_0_0 (k0_pay3 (F := Ideal)) (Rect.unit (s := S8x10000) ![0, 2048] S8x2048.size inb_S8x10000_S8x2048_0_2048),
    readCov_whole arg7.view inb_S8x10000_S8x10000_0_0 (k0_pay3 (F := Ideal)) (Rect.unit (s := S8x10000) ![0, 4096] S8x2048.size inb_S8x10000_S8x2048_0_4096),
    readCov_whole arg7.view inb_S8x10000_S8x10000_0_0 (k0_pay3 (F := Ideal)) (Rect.unit (s := S8x10000) ![0, 6144] S8x2048.size inb_S8x10000_S8x2048_0_6144),
    readCov_whole arg7.view inb_S8x10000_S8x10000_0_0 (k0_pay3 (F := Ideal)) (Rect.unit (s := S8x10000) ![0, 8192] S8x1808.size inb_S8x10000_S8x1808_0_8192)]
  exact canon_sumPiecesZ x0 (k0_pay2 x1 x2) x3 (k0_pay3 (F := Ideal)) (k0_pay3 (F := Ideal))

theorem sout0_A_2_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S10000x32 .f32) (harg6 : arg6.IsWhole) (arg7 : Memref sig .tc .vmem S8x10000 .f32) (harg7 : arg7.IsWhole) (arg8 : Memref sig .tc .vmem S8x10000 .f32) (harg8 : arg8.IsWhole) (hc0 : cond0_0 i) (hc1 : ¬cond0_1 i)
    (x0 : Vec Ideal S400x10000 .f32) (x1 : Vec Ideal S10000x128 .f32) (x2 : Vec Ideal S128x32 .f32) (x3 : Vec Ideal S32x1 .f32) :
    sout0_A_2 (F := Ideal) c i arg1 harg1 arg2 harg2 arg3 harg3 arg4 harg4 arg5 harg5 arg6 harg6 arg7 harg7 arg8 harg8 hc0 hc1 x0 x1 x2 x3 = degAfter x0 (k0_pay4 (F := Ideal)) := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1 x2 x3)]
  unfold kernelRun0_A
  dsimp only
  sl_unfold_words
  simp (disch := decide) only [View.readAt_eq_ld, harg1.read_unread, harg2.read_unread, harg3.read_unread, harg4.read_unread,
    View.ld_unit_zero (S := S400x10000) hz2, View.ld_unit_zero (S := S10000x128) hz2, View.ld_unit_zero (S := S128x32) hz2,
    View.ld_unit_zero (S := S32x1) hz2, View.readCov_unit_zero (S := S10000x32) _ hz2, readCov_skip]
  rw [readCov_whole arg8.view inb_S8x10000_S8x10000_0_0 (k0_pay4 (F := Ideal)) (Rect.unit (s := S8x10000) ![0, 0] S8x2048.size inb_S8x10000_S8x2048_0_0),
    readCov_whole arg8.view inb_S8x10000_S8x10000_0_0 (k0_pay4 (F := Ideal)) (Rect.unit (s := S8x10000) ![0, 2048] S8x2048.size inb_S8x10000_S8x2048_0_2048),
    readCov_whole arg8.view inb_S8x10000_S8x10000_0_0 (k0_pay4 (F := Ideal)) (Rect.unit (s := S8x10000) ![0, 4096] S8x2048.size inb_S8x10000_S8x2048_0_4096),
    readCov_whole arg8.view inb_S8x10000_S8x10000_0_0 (k0_pay4 (F := Ideal)) (Rect.unit (s := S8x10000) ![0, 6144] S8x2048.size inb_S8x10000_S8x2048_0_6144),
    readCov_whole arg8.view inb_S8x10000_S8x10000_0_0 (k0_pay4 (F := Ideal)) (Rect.unit (s := S8x10000) ![0, 8192] S8x1808.size inb_S8x10000_S8x1808_0_8192)]
  exact canon_degPiecesZ x0 (k0_pay4 (F := Ideal)) (k0_pay4 (F := Ideal))

end Cert.KernelIdeal.Accum

end
-- ==== Proof.Invariant.lean ====
/-
  The accumulators point by point.

  After the first point the message scratch holds the edge messages `X W1` and stays so; the two accumulators after
  point `n` are the point's update of what point `n - 1` left, starting from zero. This is an induction over the grid's
  points, one step per kind of point (the first, a middle one, the last); the last point's output block is the layer's
  formula applied to the two accumulators as that point leaves them.
-/
import proofs.«165421_g10213432229972_week1_w1_594_27_alg».proof.Proof.Cases

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.Layer

variable (m : (ℓ : Loc nD τ sig) → Buf (Elt Ideal) ℓ)

theorem zero_lt_N : 0 < cfg0.N := by rw [show cfg0.N = 25 from N_0]; decide

/-- The edge messages, from the two whole inputs as the first point finds them. -/
def msgs (c : Dev nD) : Vec Ideal S10000x32 .f32 := k0_pay2 (iblk m c 1 ⟨0, zero_lt_N⟩) (iblk m c 2 ⟨0, zero_lt_N⟩)

/-- The two accumulators after point `n`: the point's update of what the point before left, from zero. -/
def accAt (c : Dev nD) : (n : ℕ) → n < cfg0.N → Vec Ideal S8x10000 .f32 × Vec Ideal S8x10000 .f32
  | 0, h => (sumAfter (iblk m c 0 ⟨0, h⟩) (msgs m c) (iblk m c 3 ⟨0, h⟩) (k0_pay3 (F := Ideal)), degAfter (iblk m c 0 ⟨0, h⟩) (k0_pay4 (F := Ideal)))
  | n + 1, h => (sumAfter (iblk m c 0 ⟨n + 1, h⟩) (msgs m c) (iblk m c 3 ⟨n + 1, h⟩) (accAt c n (Nat.lt_of_succ_lt h)).1,
      degAfter (iblk m c 0 ⟨n + 1, h⟩) (accAt c n (Nat.lt_of_succ_lt h)).2)

/-- What the three scratches hold after point `n`. -/
theorem scratch_eq (c : Dev nD) : ∀ (n : ℕ) (h : n < cfg0.N),
    (outsAt0 m c n h).2.1 = msgs m c ∧ (outsAt0 m c n h).2.2.1 = (accAt m c n h).1 ∧ (outsAt0 m c n h).2.2.2 = (accAt m c n h).2
  | 0, h => by
    have e := outsAt0_A m c ⟨0, h⟩ rfl (by dsimp only; omega)
    have e' : outsAt0 m c 0 h = _ := e
    rw [e']
    dsimp only
    exact ⟨sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩),
      sout0_A_1_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩),
      sout0_A_2_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩)⟩
  | n + 1, h => by
    obtain ⟨i0, i1, i2⟩ := scratch_eq c n (Nat.lt_of_succ_lt h)
    have hN : cfg0.N = 25 := N_0
    have h0 : ¬(⟨n + 1, h⟩ : Fin cfg0.N).val % 25 = 0 := by dsimp only; omega
    by_cases h1 : (⟨n + 1, h⟩ : Fin cfg0.N).val % 25 = 24
    · have e := outsAt0_C m c ⟨n + 1, h⟩ h0 h1
      have e' : outsAt0 m c (n + 1) h = _ := e
      rw [e']
      dsimp only
      refine ⟨i0, ?_, ?_⟩
      · refine (sout0_C_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2.1 (outsAt0 m c n (Nat.lt_of_succ_lt h)).2.2.1 (outsAt0 m c n (Nat.lt_of_succ_lt h)).2.2.2).trans ?_
        show sumAfter _ _ _ _ = sumAfter _ _ _ _
        rw [i0, i1]
      · refine (sout0_C_2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2.1 (outsAt0 m c n (Nat.lt_of_succ_lt h)).2.2.1 (outsAt0 m c n (Nat.lt_of_succ_lt h)).2.2.2).trans ?_
        show degAfter _ _ = degAfter _ _
        rw [i2]
    · have e := outsAt0_B m c ⟨n + 1, h⟩ h0 h1
      have e' : outsAt0 m c (n + 1) h = _ := e
      rw [e']
      dsimp only
      refine ⟨i0, ?_, ?_⟩
      · refine (sout0_B_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2.1 (outsAt0 m c n (Nat.lt_of_succ_lt h)).2.2.1 (outsAt0 m c n (Nat.lt_of_succ_lt h)).2.2.2).trans ?_
        show sumAfter _ _ _ _ = sumAfter _ _ _ _
        rw [i0, i1]
      · refine (sout0_B_2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (outsAt0 m c n (Nat.lt_of_succ_lt h)).2.1 (outsAt0 m c n (Nat.lt_of_succ_lt h)).2.2.1 (outsAt0 m c n (Nat.lt_of_succ_lt h)).2.2.2).trans ?_
        show degAfter _ _ = degAfter _ _
        rw [i2]

end Cert.KernelIdeal.Accum

end
-- ==== Proof.KernelValue.lean ====
/-
  The idealized kernel's run, read as a value.

  Only the grid's last point writes the output block back, and that block is the whole `[1, 1]` result array; so the
  array ends holding what the last point stores: the layer's formula applied to the two accumulators as that point
  leaves them. The line of the program after the call reshapes that one entry to a scalar.
-/
import proofs.«165421_g10213432229972_week1_w1_594_27_alg».proof.Proof.Invariant
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.Layer

variable (m : (ℓ : Loc nD τ sig) → Buf (Elt Ideal) ℓ) (ρ : Dev nD → PrngReg)

theorem lt24 : 24 < cfg0.N := by rw [show cfg0.N = 25 from N_0]; decide

/-- The grid's last point. -/
abbrev tLast : Fin cfg0.N := ⟨24, lt24⟩

/-- The output block as the last point leaves it: the layer's formula of the two accumulators after that point. -/
theorem out_last (c : Dev nD) :
    (outsAt0 m c 24 lt24).1 = k0_pay1 (accAt m c 24 lt24).1 (accAt m c 24 lt24).2 := by
  obtain ⟨i0, i1, i2⟩ := scratch_eq m c 23 (Nat.lt_of_succ_lt lt24)
  have e := outsAt0_C m c tLast (by decide) (by decide)
  have e' : outsAt0 m c 24 lt24 = _ := e
  rw [e']
  dsimp only
  refine (out0_C_4_eq c (grid0.coords tLast) (ms0_0 tLast) (hs0_0 tLast) (ms0_1 tLast) (hs0_1 tLast) (ms0_2 tLast) (hs0_2 tLast) (ms0_3 tLast) (hs0_3 tLast) (ms0_4 tLast) (hs0_4 tLast) scM0_0 (Memref.isWhole_whole _) scM0_1 (Memref.isWhole_whole _) scM0_2 (Memref.isWhole_whole _) _ _ (iblk m c 0 tLast) (iblk m c 1 tLast) (iblk m c 2 tLast) (iblk m c 3 tLast) (outsAt0 m c 23 (Nat.lt_of_succ_lt lt24)).2.1 (outsAt0 m c 23 (Nat.lt_of_succ_lt lt24)).2.2.1 (outsAt0 m c 23 (Nat.lt_of_succ_lt lt24)).2.2.2).trans ?_
  rw [i0, i1, i2]
  rfl

/-- The result array's contents after the call. -/
abbrev result (c : Dev nD) : Buf (Elt Ideal) ((c : Thread nD τ).loc main_v1) :=
  k0_pay1 (accAt m c 24 lt24).1 (accAt m c 24 lt24).2

/-- The one write-back, at the last point, writes it: block (0, 0) of the `[1, 1]` array is the array. -/
theorem flushed_last (c : Dev nD) (t : Fin cfg0.N) (hf : (cfg0.win 4).flush t = true) :
    (dats m 0 c).flushed 4 t = ((cfg0.win 4).blk t).view.read (Elt Ideal) (result m c) := by
  have hN : cfg0.N = 25 := N_0
  have h24 : t.val = 24 := by have := (flush0_4 t).mp hf; have := t.isLt; omega
  obtain rfl : t = tLast := Fin.ext h24
  show (cfg0.win 4).cut (grid0.coords tLast) ((dats m 0 c).after 4 tLast) = _
  rw [after0_4]
  show (cfg0.win 4).cut (grid0.coords tLast) (outsAt0 m c 24 lt24).1 = _
  rw [out_last]
  have hz' : (fun a => win0_4.index tLast a * main_v1.ty.shape.size a) = fun _ => 0 := funext fun a => by fin_cases a <;> decide
  exact (Memref.read_access_unit_zero (Elt Ideal) main_v1 hz' (fun a => by rw [congrFun hz' a]; simp) (result m c)).symm

/-- So the result array ends at `result`: the last point's block covers it. -/
theorem result_array (c : Dev nD) : (dats m 0 c).arrAt 4 cfg0.N = result m c :=
  (dats m 0 c).arrAt_eq_of_cover 4 (result m c) (flushed_last m c) fun i =>
    ⟨tLast, (flush0_4 tLast).mpr rfl, by
      show i ∈ ((View.whole main_v1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩

/-- The line after the call: the scalar result is the result array's one entry, reshaped. -/
theorem tail_eq (c : Dev nD) :
    Pipeline.afterTail₀ cfgs (dats m) 0 (V0 m) [hostOps1] c main_v2 = shapeCast S_ (result m c) shapeCasts_S1x1_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = result m c := (Pipeline.withArrays_arr spec0 launch0.win.arr_inj c _ _ 4).trans (result_array m c)
  funext i
  exact congrFun (congrArg (fun x => shapeCast S_ x shapeCasts_S1x1_S_) e) i

/-- The run: every weakly fair execution ends with the scalar result at the reshaped result array and the four
    arguments as they were. -/
theorem run : θ_run defs (onTc (τ := τ) (main (F := Ideal))) ⟨m, fun _ => 0, ρ⟩ fun r => ∀ c : Dev nD,
      r.2.mem ((c.tc : Thread nD τ).loc main_v2) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Accum

end
-- ==== Proof.Blocks.lean ====
/-
  What the four input blocks hold at a grid point.

  The incidence array `B` [10000, 10000] is cut along its rows (the nodes) into 25 blocks of 400: at point `t` the
  first window holds rows `400 t … 400 t + 399`, all columns, so its entry `(q, e)` is `B (400 t + q, e)`. The edge
  features `X` [10000, 128] and the first weight `W1` [128, 32] are held whole at every point (block index
  `(0, 0)`, block = array). The fourth window holds, whole, a [32, 1] array written before the grid runs: the slice
  `[0:32, 0:1]` of the second weight `W2` [32, 32], that is its column 0, so its entry `(j, 0)` is `W2 (j, 0)`.

  In each case a block's coordinate on an axis is (block index) × (block size) + 1 × (coordinate inside the block);
  the block indices are decided once over the 25 grid points.
-/
import proofs.«165421_g10213432229972_week1_w1_594_27_alg».proof.Proof.Gen.KernelIdeal.Frame
import proofs.«165421_g10213432229972_week1_w1_594_27_alg».proof.Proof.Spec
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Cert.KernelIdeal.Accum

open Cert.KernelIdeal Cert.KernelIdeal.Gen Cert.Layer

variable {F : FTy → Type} [FloatOps F]
variable (m : (ℓ : Loc nD τ sig) → Buf (Elt F) ℓ)

/-! ## The block indices over the grid -/

/-- The incidence window is at row block `t`, column block 0. -/
theorem index0 : ∀ t : Fin cfg0.N, win0_0.index t 0 = t.val ∧ win0_0.index t 1 = 0 :=
  (by decide +kernel : ∀ t : Fin grid0.N, win0_0.index t 0 = t.val ∧ win0_0.index t 1 = 0)
/-- The feature window is at block (0, 0) at every point. -/
theorem index1 : ∀ t : Fin cfg0.N, win0_1.index t 0 = 0 ∧ win0_1.index t 1 = 0 :=
  (by decide +kernel : ∀ t : Fin grid0.N, win0_1.index t 0 = 0 ∧ win0_1.index t 1 = 0)
/-- The first weight's window is at block (0, 0) at every point. -/
theorem index2 : ∀ t : Fin cfg0.N, win0_2.index t 0 = 0 ∧ win0_2.index t 1 = 0 :=
  (by decide +kernel : ∀ t : Fin grid0.N, win0_2.index t 0 = 0 ∧ win0_2.index t 1 = 0)
/-- The second weight's column window is at block (0, 0) at every point. -/
theorem index3 : ∀ t : Fin cfg0.N, win0_3.index t 0 = 0 ∧ win0_3.index t 1 = 0 :=
  (by decide +kernel : ∀ t : Fin grid0.N, win0_3.index t 0 = 0 ∧ win0_3.index t 1 = 0)

/-- A grid point is below 25. -/
theorem point_lt (t : Fin cfg0.N) : t.val < 25 := by
  have h := t.isLt
  have hN : cfg0.N = 25 := N_0
  omega

/-! ## The blocks -/

/-- The incidence block at point `t`: entry `(q, e)` is `B (400 t + q, e)`. -/
theorem blk0_apply (c : Dev nD) (t : Fin cfg0.N) (q : Fin 400) (e : Fin 10000) :
    (iblk m c 0 t : Vec F S400x10000 .f32) (ix2 q e) = m ((c : Thread nD τ).loc main_arg1) (ix2 (wrap 10000 (400 * t.val + q.val)) e) := by
  have hi := index0 t
  have ht := point_lt t
  have hq := q.isLt
  unfold iblk
  rw [View.read_apply]
  show V m c main_arg1 _ = _
  rw [V_main_arg1]
  congr 1
  funext a
  apply Fin.ext
  match a with
  | ⟨0, _⟩ =>
    show win0_0.index t 0 * 400 + 1 * q.val = (wrap 10000 (400 * t.val + q.val)).val
    rw [hi.1, wrap_val_of_lt (by omega)]; omega
  | ⟨1, _⟩ =>
    show win0_0.index t 1 * 10000 + 1 * e.val = e.val
    rw [hi.2]; omega

/-- The feature block is the whole feature array. -/
theorem blk1_eq (c : Dev nD) (t : Fin cfg0.N) : (iblk m c 1 t : Vec F S10000x128 .f32) = m ((c : Thread nD τ).loc main_arg0) := by
  have hi := index1 t
  funext j
  unfold iblk
  rw [View.read_apply]
  show V m c main_arg0 _ = _
  rw [V_main_arg0]
  congr 1
  funext a
  apply Fin.ext
  match a with
  | ⟨0, _⟩ =>
    show win0_1.index t 0 * 10000 + 1 * (j 0).val = (j 0).val
    rw [hi.1]; omega
  | ⟨1, _⟩ =>
    show win0_1.index t 1 * 128 + 1 * (j 1).val = (j 1).val
    rw [hi.2]; omega

/-- The first weight's block is the whole weight. -/
theorem blk2_eq (c : Dev nD) (t : Fin cfg0.N) : (iblk m c 2 t : Vec F S128x32 .f32) = m ((c : Thread nD τ).loc main_arg2) := by
  have hi := index2 t
  funext j
  unfold iblk
  rw [View.read_apply]
  show V m c main_arg2 _ = _
  rw [V_main_arg2]
  congr 1
  funext a
  apply Fin.ext
  match a with
  | ⟨0, _⟩ =>
    show win0_2.index t 0 * 128 + 1 * (j 0).val = (j 0).val
    rw [hi.1]; omega
  | ⟨1, _⟩ =>
    show win0_2.index t 1 * 32 + 1 * (j 1).val = (j 1).val
    rw [hi.2]; omega

/-- The [32, 1] array the fourth window reads is, when the grid starts, the slice `[0:32, 0:1]` of the second weight. -/
theorem column_eq (c : Dev nD) :
    (V m c main_v0 : S32x1.Idx → Elt F .f32)
      = extractStridedSlice S32x1 ![0, 0] (m ((c : Thread nD τ).loc main_arg3)) slices_S32x32_S32x1_0_0 := by
  show StableHlo.after hostOps0 (fun b => m (c, b)) (Proc.devRef .tc main_v0) = _
  after_results

/-- The fourth block's entry `(j, 0)` is the second weight at `(j, 0)`. -/
theorem blk3_apply (c : Dev nD) (t : Fin cfg0.N) (j : Fin 32) :
    (iblk m c 3 t : Vec F S32x1 .f32) (ix2 j (0 : Fin 1)) = m ((c : Thread nD τ).loc main_arg3) (ix2 j (0 : Fin 32)) := by
  have hi := index3 t
  unfold iblk
  rw [View.read_apply]
  show V m c main_v0 _ = _
  rw [column_eq]
  unfold extractStridedSlice
  congr 1
  funext a
  apply Fin.ext
  match a with
  | ⟨0, _⟩ =>
    show 0 + (win0_3.index t 0 * 32 + 1 * j.val) = j.val
    rw [hi.1]; omega
  | ⟨1, _⟩ =>
    show 0 + (win0_3.index t 1 * 1 + 1 * 0) = 0
    rw [hi.2]

end Cert.KernelIdeal.Accum

end
-- ==== Proof.PointValue.lean ====
/-
  The kernel's three computed values, each read at an index as a formula over the extended reals.

  The edge messages: a product of the edge features `X` [10000, 128] with the weights `W1` [128, 32] into a zero
  accumulator, so its entry `(e, j)` is `∑ d, X (e, d) * W1 (d, j)`.

  A block's node messages: for 400 rows of the incidence matrix, the product with the edge messages [10000, 32], the maximum
  with zero, and the product with one column `w` [32, 1] of the second weight; its entry `(q, 0)` is
  `∑ j, max (∑ e, blk (q, e) * xm (e, j)) 0 * w (j, 0)`.

  The final value: the gathered sums `u` and the degrees `d` arrive as eight partial rows [8, 10000]; each is summed over its
  eight rows, the quotient of the two goes through the logistic function, the 10000 results are summed, and the total is
  divided by the edge count as the program writes it (the word `0x461C4000`).

  A product's entry is a sum over the contraction index, which is re-indexed by the one contracted coordinate; a sum over one
  axis is a sum over that axis's coordinate with the kept coordinates in place. No sum is expanded.
-/
import proofs.«165421_g10213432229972_week1_w1_594_27_alg».proof.Proof.Gen.KernelIdeal.Skeleton
import proofs.«165421_g10213432229972_week1_w1_594_27_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx Idealize.SL.Sem

namespace Cert.KernelIdeal.Accum

open Cert.KernelIdeal Cert.KernelIdeal.Gen Cert.Layer

/-! ## The three products, entry by entry -/

theorem lhs_xw_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_xw_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_xw_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_xw_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl
/-- The product into a zero accumulator, read at `(p, q)`: `∑ k, L (p, k) * R (k, q)`. -/
theorem matmul_xw_apply (Lm : FVec Ideal S10000x128 .f32) (Rm : FVec Ideal S128x32 .f32) (p : Fin 10000) (q : Fin 32) :
    matmul dot_S10000x128_S128x32_S10000x32_1_0_0_1_n_n none Lm Rm (constant (F := Ideal) S10000x32 .f32 0x00000000#32) (ix2 p q)
      = ∑ k : Fin 128, Lm (ix2 p k) * Rm (ix2 k q) := by
  refine (Ideal.matmul_constant_zero_apply dot_S10000x128_S128x32_S10000x32_1_0_0_1_n_n none Lm Rm (ix2 p q)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

theorem pay2_apply (X : Vec Ideal S10000x128 .f32) (W1 : Vec Ideal S128x32 .f32) (e : Fin 10000) (j : Fin 32) :
    k0_pay2 X W1 (ix2 e j) = Cert.Layer.edgeMsg X W1 e j := by
  unfold k0_pay2 Cert.Layer.edgeMsg
  rw [shapeCast_self]
  exact matmul_xw_apply X W1 e j

/-! ## A block's node messages -/

theorem lhs_bx_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_bx_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_bx_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_bx_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl
/-- The product into a zero accumulator, read at `(p, q)`: `∑ k, L (p, k) * R (k, q)`. -/
theorem matmul_bx_apply (Lm : FVec Ideal S400x10000 .f32) (Rm : FVec Ideal S10000x32 .f32) (p : Fin 400) (q : Fin 32) :
    matmul dot_S400x10000_S10000x32_S400x32_1_0_0_1_n_n none Lm Rm (constant (F := Ideal) S400x32 .f32 0x00000000#32) (ix2 p q)
      = ∑ k : Fin 10000, Lm (ix2 p k) * Rm (ix2 k q) := by
  refine (Ideal.matmul_constant_zero_apply dot_S400x10000_S10000x32_S400x32_1_0_0_1_n_n none Lm Rm (ix2 p q)).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 p q) ((contrEquiv1 dot_S400x10000_S10000x32_S400x32_1_0_0_1_n_n 10000 rfl rfl).symm k) = ix2 p k := funext fun a => Fin.ext (by
    match a with
    | ⟨0, _⟩ => exact lhs_bx_0 _ _
    | ⟨1, _⟩ => exact (lhs_bx_1 _ _).trans hk)
  have er : dot_S400x10000_S10000x32_S400x32_1_0_0_1_n_n.rhsIdx (ix2 p q) ((contrEquiv1 dot_S400x10000_S10000x32_S400x32_1_0_0_1_n_n 10000 rfl rfl).symm k) = ix2 k q := funext fun a => Fin.ext (by
    match a with
    | ⟨0, _⟩ => exact (rhs_bx_0 _ _).trans hk
    | ⟨1, _⟩ => exact rhs_bx_1 _ _)
  rw [el, er]
theorem lhs_aw_0 (i : S400x1.Idx) (q : dot_S400x32_S32x1_S400x1_1_0_0_1_n_n.contr.Idx) :
    (dot_S400x32_S32x1_S400x1_1_0_0_1_n_n.lhsIdx i q 0).val = (i 0).val := by
  unfold DotDims.lhsIdx
  rw [dif_neg (show ¬(0 : Fin S400x32.rank) ∈ dot_S400x32_S32x1_S400x1_1_0_0_1_n_n.lhsBatch by decide), dif_pos (show (0 : Fin S400x32.rank) ∈ dot_S400x32_S32x1_S400x1_1_0_0_1_n_n.lhsNonContracting by decide)]
  rfl
theorem lhs_aw_1 (i : S400x1.Idx) (q : dot_S400x32_S32x1_S400x1_1_0_0_1_n_n.contr.Idx) :
    (dot_S400x32_S32x1_S400x1_1_0_0_1_n_n.lhsIdx i q 1).val = (q ⟨0, by decide⟩).val :=
  dot_S400x32_S32x1_S400x1_1_0_0_1_n_n.lhsIdx_val_of_single rfl i q
theorem rhs_aw_0 (i : S400x1.Idx) (q : dot_S400x32_S32x1_S400x1_1_0_0_1_n_n.contr.Idx) :
    (dot_S400x32_S32x1_S400x1_1_0_0_1_n_n.rhsIdx i q 0).val = (q ⟨0, by decide⟩).val :=
  dot_S400x32_S32x1_S400x1_1_0_0_1_n_n.rhsIdx_val_of_single rfl i q
theorem rhs_aw_1 (i : S400x1.Idx) (q : dot_S400x32_S32x1_S400x1_1_0_0_1_n_n.contr.Idx) :
    (dot_S400x32_S32x1_S400x1_1_0_0_1_n_n.rhsIdx i q 1).val = (i 1).val := by
  unfold DotDims.rhsIdx
  rw [dif_neg (show ¬(1 : Fin S32x1.rank) ∈ dot_S400x32_S32x1_S400x1_1_0_0_1_n_n.rhsBatch by decide), dif_pos (show (1 : Fin S32x1.rank) ∈ dot_S400x32_S32x1_S400x1_1_0_0_1_n_n.rhsNonContracting by decide)]
  rfl
/-- The product into a zero accumulator, read at `(p, q)`: `∑ k, L (p, k) * R (k, q)`. -/
theorem matmul_aw_apply (Lm : FVec Ideal S400x32 .f32) (Rm : FVec Ideal S32x1 .f32) (p : Fin 400) (q : Fin 1) :
    matmul dot_S400x32_S32x1_S400x1_1_0_0_1_n_n none Lm Rm (constant (F := Ideal) S400x1 .f32 0x00000000#32) (ix2 p q)
      = ∑ k : Fin 32, Lm (ix2 p k) * Rm (ix2 k q) := by
  refine (Ideal.matmul_constant_zero_apply dot_S400x32_S32x1_S400x1_1_0_0_1_n_n none Lm Rm (ix2 p q)).trans ?_
  rw [← Equiv.sum_comp (contrEquiv1 dot_S400x32_S32x1_S400x1_1_0_0_1_n_n 32 rfl rfl).symm]
  refine Finset.sum_congr rfl fun k _ => ?_
  have hk := contrEquiv1_symm_val dot_S400x32_S32x1_S400x1_1_0_0_1_n_n 32 rfl rfl k
  have el : dot_S400x32_S32x1_S400x1_1_0_0_1_n_n.lhsIdx (ix2 p q) ((contrEquiv1 dot_S400x32_S32x1_S400x1_1_0_0_1_n_n 32 rfl rfl).symm k) = ix2 p k := funext fun a => Fin.ext (by
    match a with
    | ⟨0, _⟩ => exact lhs_aw_0 _ _
    | ⟨1, _⟩ => exact (lhs_aw_1 _ _).trans hk)
  have er : dot_S400x32_S32x1_S400x1_1_0_0_1_n_n.rhsIdx (ix2 p q) ((contrEquiv1 dot_S400x32_S32x1_S400x1_1_0_0_1_n_n 32 rfl rfl).symm k) = ix2 k q := funext fun a => Fin.ext (by
    match a with
    | ⟨0, _⟩ => exact (rhs_aw_0 _ _).trans hk
    | ⟨1, _⟩ => exact rhs_aw_1 _ _)
  rw [el, er]

theorem pay5_apply (blk : Vec Ideal S400x10000 .f32) (xm : Vec Ideal S10000x32 .f32) (w : Vec Ideal S32x1 .f32) (q : Fin 400) :
    k0_pay5 blk xm w (ix2 q (0 : Fin 1))
      = ∑ j : Fin 32, max (∑ e : Fin 10000, blk (ix2 q e) * xm (ix2 e j)) 0 * w (ix2 j (0 : Fin 1)) := by
  unfold k0_pay5
  rw [shapeCast_self]
  refine (matmul_aw_apply _ w q 0).trans ?_
  refine Finset.sum_congr rfl fun j _ => ?_
  rw [maximumf_apply, broadcast_apply, matmul_bx_apply]
  -- the zero word is the number zero
  show max _ (Ideal.ofBits .f32 0x00000000#32) * _ = _
  rw [Ideal.ofBits_zero_f32]

/-! ## The final value -/

/-- The sum over the eight rows of an [8, 10000] array, read at column `e`. -/
theorem colSum_apply (u : FVec Ideal S8x10000 .f32) (e : Fin 10000) :
    multiReduction .add [0] S10000 u 0x00000000#32 reduces_S8x10000_S10000 (.inl rfl) rfl (ix1 e)
      = ∑ r : Fin 8, u (ix2 r e) := by
  refine (Ideal.multiReduction_add_single u 0x00000000#32 reduces_S8x10000_S10000 (.inl rfl) rfl (ix1 e)).trans ?_
  refine Finset.sum_congr rfl fun r _ => ?_
  refine congrArg u (funext fun a => Fin.ext ?_)
  match a with
  | ⟨0, _⟩ => rfl
  | ⟨1, _⟩ => rfl

/-- The same sum kept as a row [1, 10000], read at `(0, e)`. -/
theorem rowOfColSum_apply (u : FVec Ideal S8x10000 .f32) (e : Fin 10000) :
    shapeCast S1x10000 (multiReduction .add [0] S10000 u 0x00000000#32 reduces_S8x10000_S10000 (.inl rfl) rfl)
        shapeCasts_S10000_S1x10000 (ix2 (0 : Fin 1) e)
      = ∑ r : Fin 8, u (ix2 r e) := by
  refine (shapeCast_addUnit_apply ![10000] _ shapeCasts_S10000_S1x10000 (ix2 (0 : Fin 1) e)).trans ?_
  refine Eq.trans ?_ (colSum_apply u e)
  refine congrArg _ (funext fun a => ?_)
  match a with
  | ⟨0, _⟩ => rfl

/-- The sum along a row [1, 10000], read at its one index. -/
theorem rowSum_apply (v : FVec Ideal S1x10000 .f32) (j : S1.Idx) :
    multiReduction .add [1] S1 v 0x00000000#32 reduces_S1x10000_S1 (.inl rfl) rfl j
      = ∑ e : Fin 10000, v (ix2 (0 : Fin 1) e) := by
  refine (Ideal.multiReduction_add_single v 0x00000000#32 reduces_S1x10000_S1 (.inl rfl) rfl j).trans ?_
  refine Finset.sum_congr rfl fun e _ => ?_
  refine congrArg v (funext fun a => Fin.ext ?_)
  match a with
  | ⟨0, _⟩ =>
    show (j ⟨0, _⟩).val = 0
    have h1 := (j ⟨0, by decide⟩).isLt
    have h2 : S1.size ⟨0, by decide⟩ = 1 := rfl
    omega
  | ⟨1, _⟩ => rfl

theorem pay1_apply (u d : Vec Ideal S8x10000 .f32) (i : S1x1.Idx) :
    k0_pay1 u d i
      = Ideal.div (∑ e : Fin 10000, Ideal.logistic (Ideal.div (∑ r : Fin 8, u (ix2 r e)) (∑ r : Fin 8, d (ix2 r e))))
          (Ideal.ofBits .f32 0x461C4000#32) := by
  unfold k0_pay1
  rw [divf_apply, broadcast_apply]
  refine congrArg (fun z => Ideal.div z _) ?_
  refine (shapeCast_addUnit_apply ![1] _ shapeCasts_S1_S1x1 i).trans ?_
  refine (rowSum_apply _ _).trans ?_
  refine Finset.sum_congr rfl fun e _ => ?_
  show Ideal.logistic (Ideal.div _ _) = _
  rw [rowOfColSum_apply, rowOfColSum_apply]

end Cert.KernelIdeal.Accum

end
-- ==== Proof.Closed.lean ====
/-
  The two accumulators in closed form, and the value the last point computes from them.

  With `B` the incidence array, `X` the edge features and `W1`, `W2` the weights: the message scratch holds the edge
  messages `X W1`; row `q` of point `t`'s block of `B` is node `400 t + q`, so the block's node message at row `q` is
  node `400 t + q`'s message `∑ j, max (∑ e, B (n, e) * (X W1) (e, j)) 0 * W2 (j, 0)`.

  Each point adds to entry `(r, e)` of the gathered sums, over the fifty row groups `k`, the term of node
  `400 t + 8 k + r`: incidence entry at edge `e` times node message (for the degrees: the incidence entry alone). Both
  accumulators start from zero, so after point `n` entry `(r, e)` is the sum of those terms over `t ≤ n` and `k < 50`
  (induction on `n`). After the last point, `n = 24`, summing the eight rows `r` runs over every node exactly once
  (`n = 400 t + 8 k + r`), which gives what edge `e` gathers and edge `e`'s degree. The last point's output is the mean
  over the edges of the logistic function of the quotient of those two: the layer's value.
-/
import proofs.«165421_g10213432229972_week1_w1_594_27_alg».proof.Proof.Invariant
import proofs.«165421_g10213432229972_week1_w1_594_27_alg».proof.Proof.Blocks
import proofs.«165421_g10213432229972_week1_w1_594_27_alg».proof.Proof.PointValue

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Accum

open Cert.KernelIdeal Cert.KernelIdeal.Gen Cert.Layer

variable (m : (ℓ : Loc nD τ sig) → Buf (Elt Ideal) ℓ)

/-- The incidence array `B` [10000, 10000], as the program's second argument holds it. -/
abbrev inB (c : Dev nD) : (⟨2, ![10000, 10000]⟩ : Shape).Idx → EReal := m ((c : Thread nD τ).loc main_arg1)
/-- The edge features `X` [10000, 128], the first argument. -/
abbrev inX (c : Dev nD) : (⟨2, ![10000, 128]⟩ : Shape).Idx → EReal := m ((c : Thread nD τ).loc main_arg0)
/-- The first weight `W1` [128, 32], the third argument. -/
abbrev inW1 (c : Dev nD) : (⟨2, ![128, 32]⟩ : Shape).Idx → EReal := m ((c : Thread nD τ).loc main_arg2)
/-- The second weight `W2` [32, 32], the fourth argument. -/
abbrev inW2 (c : Dev nD) : (⟨2, ![32, 32]⟩ : Shape).Idx → EReal := m ((c : Thread nD τ).loc main_arg3)

/-- The gathered sums start from zero. -/
theorem pay3_apply (i : S8x10000.Idx) : k0_pay3 (F := Ideal) i = 0 := by
  unfold k0_pay3
  rw [shapeCast_self, broadcast_apply]
  show Ideal.ofBits .f32 0x00000000#32 = 0
  exact Ideal.ofBits_zero_f32

/-- The degrees start from zero. -/
theorem pay4_apply (i : S8x10000.Idx) : k0_pay4 (F := Ideal) i = 0 := by
  unfold k0_pay4
  rw [shapeCast_self, broadcast_apply]
  show Ideal.ofBits .f32 0x00000000#32 = 0
  exact Ideal.ofBits_zero_f32

/-- The message scratch holds the edge messages `X W1`. -/
theorem msgs_apply (c : Dev nD) (e : Fin 10000) (j : Fin 32) :
    msgs m c (ix2 e j) = edgeMsg (inX m c) (inW1 m c) e j := by
  unfold msgs
  rw [blk1_eq, blk2_eq]
  exact pay2_apply _ _ e j

/-- Point `t`'s block of the incidence array, at its literal type. -/
abbrev blkB (c : Dev nD) (t : Fin cfg0.N) : Vec Ideal S400x10000 .f32 := iblk m c 0 t
/-- Point `t`'s block of the second weight's column 0, at its literal type. -/
abbrev blkW (c : Dev nD) (t : Fin cfg0.N) : Vec Ideal S32x1 .f32 := iblk m c 3 t

/-- The incidence block's entry `(q, e)` is `B (400 t + q, e)`. -/
theorem blkB_apply (c : Dev nD) (t : Fin cfg0.N) (q : Fin 400) (e : Fin 10000) :
    blkB m c t (ix2 q e) = inB m c (ix2 (wrap 10000 (400 * t.val + q.val)) e) := blk0_apply m c t q e
/-- The column block's entry `(j, 0)` is `W2 (j, 0)`. -/
theorem blkW_apply (c : Dev nD) (t : Fin cfg0.N) (j : Fin 32) :
    blkW m c t (ix2 j (0 : Fin 1)) = inW2 m c (ix2 j (0 : Fin 32)) := blk3_apply m c t j

/-- Row `q` of point `t`'s block is node `400 t + q`: the block's node message there is that node's message. -/
theorem nodeMsg_block (c : Dev nD) (t : Fin cfg0.N) (q : Fin 400) :
    k0_pay5 (blkB m c t) (msgs m c) (blkW m c t) (ix2 q (0 : Fin 1))
      = nodeMsg (inB m c) (inX m c) (inW1 m c) (inW2 m c) (wrap 10000 (400 * t.val + q.val)) := by
  rw [pay5_apply]
  unfold nodeMsg nodeAct
  refine Finset.sum_congr rfl fun j _ => ?_
  have hin : ∑ e : Fin 10000, blkB m c t (ix2 q e) * msgs m c (ix2 e j)
      = ∑ e : Fin 10000, inB m c (ix2 (wrap 10000 (400 * t.val + q.val)) e) * edgeMsg (inX m c) (inW1 m c) e j :=
    Finset.sum_congr rfl fun e _ => by rw [blkB_apply, msgs_apply]
  rw [hin, blkW_apply]

/-- One point's update of the gathered sums at `(r, e)`: the old entry plus, over the fifty row groups, the incidence
    entry of node `400 t + 8 k + r` at edge `e` times that node's message. -/
theorem sumAfter_point (c : Dev nD) (t : Fin cfg0.N) (old : Vec Ideal S8x10000 .f32) (r : Fin 8) (e : Fin 10000) :
    sumAfter (blkB m c t) (msgs m c) (blkW m c t) old (ix2 r e)
      = old (ix2 r e) + ∑ k ∈ Finset.range 50,
          inB m c (ix2 (wrap 10000 (400 * t.val + 8 * k + r.val)) e)
            * nodeMsg (inB m c) (inX m c) (inW1 m c) (inW2 m c) (wrap 10000 (400 * t.val + 8 * k + r.val)) := by
  show old (ix2 r e) + ∑ k ∈ Finset.range 50,
      blkB m c t (ix2 (wrap 400 (8 * k + r.val)) e) * k0_pay5 (blkB m c t) (msgs m c) (blkW m c t) (ix2 (wrap 400 (8 * k + r.val)) (0 : Fin 1)) = _
  refine congrArg (fun z => old (ix2 r e) + z) (Finset.sum_congr rfl fun k hk => ?_)
  have hk' : k < 50 := Finset.mem_range.1 hk
  have hr := r.isLt
  have hw : (wrap 400 (8 * k + r.val)).val = 8 * k + r.val := wrap_val_of_lt (by omega)
  rw [blkB_apply, nodeMsg_block, hw, ← Nat.add_assoc]

/-- One point's update of the degrees at `(r, e)`. -/
theorem degAfter_point (c : Dev nD) (t : Fin cfg0.N) (old : Vec Ideal S8x10000 .f32) (r : Fin 8) (e : Fin 10000) :
    degAfter (blkB m c t) old (ix2 r e)
      = old (ix2 r e) + ∑ k ∈ Finset.range 50, inB m c (ix2 (wrap 10000 (400 * t.val + 8 * k + r.val)) e) := by
  show old (ix2 r e) + ∑ k ∈ Finset.range 50, blkB m c t (ix2 (wrap 400 (8 * k + r.val)) e) = _
  refine congrArg (fun z => old (ix2 r e) + z) (Finset.sum_congr rfl fun k hk => ?_)
  have hk' : k < 50 := Finset.mem_range.1 hk
  have hr := r.isLt
  have hw : (wrap 400 (8 * k + r.val)).val = 8 * k + r.val := wrap_val_of_lt (by omega)
  rw [blkB_apply, hw, ← Nat.add_assoc]

/-- The gathered sums after point `n`, at `(r, e)`: the sum over the blocks so far and the row groups. -/
theorem acc_sum (c : Dev nD) : ∀ (n : ℕ) (h : n < cfg0.N) (r : Fin 8) (e : Fin 10000),
    (accAt m c n h).1 (ix2 r e)
      = ∑ t ∈ Finset.range (n + 1), ∑ k ∈ Finset.range 50,
          inB m c (ix2 (wrap 10000 (400 * t + 8 * k + r.val)) e)
            * nodeMsg (inB m c) (inX m c) (inW1 m c) (inW2 m c) (wrap 10000 (400 * t + 8 * k + r.val))
  | 0, h, r, e => by
    show sumAfter (blkB m c ⟨0, h⟩) (msgs m c) (blkW m c ⟨0, h⟩) (k0_pay3 (F := Ideal)) (ix2 r e) = _
    rw [sumAfter_point, pay3_apply, zero_add, Finset.sum_range_one]
  | n + 1, h, r, e => by
    show sumAfter (blkB m c ⟨n + 1, h⟩) (msgs m c) (blkW m c ⟨n + 1, h⟩) (accAt m c n (Nat.lt_of_succ_lt h)).1 (ix2 r e) = _
    rw [sumAfter_point, acc_sum c n (Nat.lt_of_succ_lt h) r e, Finset.sum_range_succ _ (n + 1)]

/-- The degrees after point `n`, at `(r, e)`. -/
theorem acc_deg (c : Dev nD) : ∀ (n : ℕ) (h : n < cfg0.N) (r : Fin 8) (e : Fin 10000),
    (accAt m c n h).2 (ix2 r e)
      = ∑ t ∈ Finset.range (n + 1), ∑ k ∈ Finset.range 50, inB m c (ix2 (wrap 10000 (400 * t + 8 * k + r.val)) e)
  | 0, h, r, e => by
    show degAfter (blkB m c ⟨0, h⟩) (k0_pay4 (F := Ideal)) (ix2 r e) = _
    rw [degAfter_point, pay4_apply, zero_add, Finset.sum_range_one]
  | n + 1, h, r, e => by
    show degAfter (blkB m c ⟨n + 1, h⟩) (accAt m c n (Nat.lt_of_succ_lt h)).2 (ix2 r e) = _
    rw [degAfter_point, acc_deg c n (Nat.lt_of_succ_lt h) r e, Finset.sum_range_succ _ (n + 1)]

/-- After the last point the eight partial rows of the gathered sums add up to what edge `e` gathers. -/
theorem rows_sum (c : Dev nD) (h : 24 < cfg0.N) (e : Fin 10000) :
    ∑ r : Fin 8, (accAt m c 24 h).1 (ix2 r e) = edgeSum (inB m c) (inX m c) (inW1 m c) (inW2 m c) e := by
  unfold edgeSum
  rw [← sum_by_residue (fun n => inB m c (ix2 n e) * nodeMsg (inB m c) (inX m c) (inW1 m c) (inW2 m c) n)]
  exact Finset.sum_congr rfl fun r _ => acc_sum m c 24 h r e

/-- After the last point the eight partial rows of the degrees add up to edge `e`'s degree. -/
theorem rows_deg (c : Dev nD) (h : 24 < cfg0.N) (e : Fin 10000) :
    ∑ r : Fin 8, (accAt m c 24 h).2 (ix2 r e) = edgeDeg (inB m c) e := by
  unfold edgeDeg
  rw [← sum_by_residue (fun n => inB m c (ix2 n e))]
  exact Finset.sum_congr rfl fun r _ => acc_deg m c 24 h r e

/-- The output block the last point writes is the layer's value. -/
theorem out_value (c : Dev nD) (h : 24 < cfg0.N) (i : S1x1.Idx) :
    k0_pay1 (accAt m c 24 h).1 (accAt m c 24 h).2 i
      = Cert.Layer.value (m ((c : Thread nD τ).loc main_arg1)) (m ((c : Thread nD τ).loc main_arg0)) (m ((c : Thread nD τ).loc main_arg2)) (m ((c : Thread nD τ).loc main_arg3)) (Ideal.ofBits .f32 0x461C4000#32) := by
  rw [pay1_apply]
  show _ = Cert.Layer.value (inB m c) (inX m c) (inW1 m c) (inW2 m c) (Ideal.ofBits .f32 0x461C4000#32)
  unfold value
  refine congrArg (fun z => Ideal.div z _) (Finset.sum_congr rfl fun e _ => ?_)
  rw [rows_sum, rows_deg]

end Cert.KernelIdeal.Accum

end
-- ==== Proof.RefRead.lean ====
/-
  The reference's value, read one operation at a time at the ideal instance.

  The reference computes, in order: the edge messages `X W1`; the node pre-activations `B (X W1)` and their positive
  part; the node messages, the positive part times `W2`; what each edge gathers through the transposed incidence;
  each edge's degree, a row sum of the transposed incidence (a column sum of `B`) started from zero; the reciprocal
  of the degree, repeated along the feature axis; the product of the two; the logistic function written out as
  `1 / (1 + exp (-x))`; the sum over the edges started from zero, divided by the edge count; and of the 32 columns
  only column 0, as a scalar.

  Each stage is read below at an index given by its coordinates and identified with the specification's definition
  of the same quantity (`Cert.Layer.edgeMsg`, `nodeAct`, `nodeMsg`, `edgeSum`, `edgeDeg`), so that no sum over the 10000
  nodes or edges is ever expanded: two such sums are compared term by term at a symbolic summation index.
-/
import proofs.«165421_g10213432229972_week1_w1_594_27_alg».proof.Defs
import proofs.«165421_g10213432229972_week1_w1_594_27_alg».proof.Proof.Gen.ReferenceIdeal.Run
import proofs.«165421_g10213432229972_week1_w1_594_27_alg».proof.Proof.Gen.ReferenceIdeal.Read
import proofs.«165421_g10213432229972_week1_w1_594_27_alg».proof.Proof.Spec
import Idealize.ShloMosaic.Lib.ValueIdx
import Idealize.ShloMosaic.Lib.Pipeline.Value
import Idealize.ShloMosaic.PureOps.Ideal.Laws

noncomputable section

open scoped BigOperators
open Cert.ReferenceIdeal Cert.ReferenceIdeal.Gen Idealize.ShloMosaic Idealize.ShloMosaic.TcCoe Idealize.SL.Sem Idealize.ShloMosaic.StableHlo
open Idealize.ShloMosaic.ValueIdx

namespace Cert.ReferenceIdeal.RefValue

open Cert.ReferenceIdeal.Read Cert.Layer

variable (x0 : (⟨S10000x128, .f32⟩ : BufTy).Contents (Elt Ideal)) (x1 : (⟨S10000x10000, .f32⟩ : BufTy).Contents (Elt Ideal))
  (x2 : (⟨S128x32, .f32⟩ : BufTy).Contents (Elt Ideal)) (x3 : (⟨S32x32, .f32⟩ : BufTy).Contents (Elt Ideal))

/-! ## The index maps of the products, sums and layout operations, at an index given by its coordinates

A product `(L R) (a, b) = ∑ k, L (a, k) * R (k, b)` reads its left factor at `(a, k)` and its right factor at
`(k, b)`; the transpose reads `(a, b)` at `(b, a)`; a row sum reads `(a, k)`, a column sum `(k, b)`. -/

theorem lidx_v0 (e : Fin 10000) (j : Fin 32) (d : Fin 128) : lidx_main_v0 (ix2 e j) d = ix2 e d :=
  funext fun a => match a with | ⟨0, _⟩ => rfl | ⟨1, _⟩ => rfl
theorem ridx_v0 (e : Fin 10000) (j : Fin 32) (d : Fin 128) : ridx_main_v0 (ix2 e j) d = ix2 d j :=
  funext fun a => match a with | ⟨0, _⟩ => rfl | ⟨1, _⟩ => rfl
theorem lidx_v1 (n : Fin 10000) (j : Fin 32) (e : Fin 10000) : lidx_main_v1 (ix2 n j) e = ix2 n e :=
  funext fun a => match a with | ⟨0, _⟩ => rfl | ⟨1, _⟩ => rfl
theorem ridx_v1 (n : Fin 10000) (j : Fin 32) (e : Fin 10000) : ridx_main_v1 (ix2 n j) e = ix2 e j :=
  funext fun a => match a with | ⟨0, _⟩ => rfl | ⟨1, _⟩ => rfl
theorem lidx_v4 (n : Fin 10000) (c : Fin 32) (j : Fin 32) : lidx_main_v4 (ix2 n c) j = ix2 n j :=
  funext fun a => match a with | ⟨0, _⟩ => rfl | ⟨1, _⟩ => rfl
theorem ridx_v4 (n : Fin 10000) (c : Fin 32) (j : Fin 32) : ridx_main_v4 (ix2 n c) j = ix2 j c :=
  funext fun a => match a with | ⟨0, _⟩ => rfl | ⟨1, _⟩ => rfl
theorem lidx_v5 (e : Fin 10000) (c : Fin 32) (n : Fin 10000) : lidx_main_v5 (ix2 e c) n = ix2 e n :=
  funext fun a => match a with | ⟨0, _⟩ => rfl | ⟨1, _⟩ => rfl
theorem ridx_v5 (e : Fin 10000) (c : Fin 32) (n : Fin 10000) : ridx_main_v5 (ix2 e c) n = ix2 n c :=
  funext fun a => match a with | ⟨0, _⟩ => rfl | ⟨1, _⟩ => rfl
theorem idx_v3 (e n : Fin 10000) : idx_main_v3 (ix2 e n) = ix2 n e :=
  funext fun a => match a with | ⟨0, _⟩ => rfl | ⟨1, _⟩ => rfl
theorem idx_v6 (e n : Fin 10000) : idx_main_v6 (ix1 e) n = ix2 e n :=
  funext fun a => match a with | ⟨0, _⟩ => rfl | ⟨1, _⟩ => rfl
theorem idx_v9 (e : Fin 10000) (z : Fin 1) : idx_main_v9 (ix2 e z) = ix1 e :=
  funext fun a => match a with | ⟨0, _⟩ => rfl
theorem idx_v10 (e : Fin 10000) (c : Fin 32) : idx_main_v10 (ix2 e c) = ix2 e (0 : Fin 1) :=
  funext fun a => match a with | ⟨0, _⟩ => rfl | ⟨1, _⟩ => rfl
theorem idx_v18 (c : Fin 32) (e : Fin 10000) : idx_main_v18 (ix1 c) e = ix2 e c :=
  funext fun a => match a with | ⟨0, _⟩ => rfl | ⟨1, _⟩ => rfl
theorem idx_v21 (z : Fin 1) : idx_main_v21 (ix1 z) = ix1 (0 : Fin 32) :=
  funext fun a => match a with | ⟨0, _⟩ => Fin.ext (by show z.val = 0; omega)

/-! ## The stages -/

/-- The first product is the edge messages `X W1`. -/
theorem edgeMsg_read (e : Fin 10000) (j : Fin 32) :
    val_main_v0 (F := Ideal) x0 x2 (ix2 e j) = edgeMsg x0 x2 e j := by
  rw [val_main_v0_apply]
  unfold edgeMsg
  refine Finset.sum_congr rfl fun d _ => ?_
  rw [lidx_v0, ridx_v0]

/-- The second product, cut off below at the zero word, is the node activations `max (B (X W1)) 0`. -/
theorem nodeAct_read (n : Fin 10000) (j : Fin 32) :
    val_main_v2 (F := Ideal) x0 x1 x2 (ix2 n j) = nodeAct x1 x0 x2 n j := by
  rw [val_main_v2_apply, val_main_v1_apply, val_main_call0_v0_apply, val_main_call0_cst_apply, Ideal.maximumf_def,
    Ideal.ofBits_def, Ideal.ofBits_zero_f32]
  unfold nodeAct
  refine congrArg (max · 0) (Finset.sum_congr rfl fun e _ => ?_)
  rw [lidx_v1, ridx_v1, edgeMsg_read]

/-- The third product at column `c` is `∑ j, act n j * W2 j c`; at column 0 it is the node's message. -/
theorem nodeMsg_read (n : Fin 10000) :
    val_main_v4 (F := Ideal) x0 x1 x2 x3 (ix2 n (0 : Fin 32)) = nodeMsg x1 x0 x2 x3 n := by
  rw [val_main_v4_apply]
  unfold nodeMsg
  refine Finset.sum_congr rfl fun j _ => ?_
  rw [lidx_v4, ridx_v4, nodeAct_read]

/-- The transposed incidence at `(e, n)` is the incidence at `(n, e)`. -/
theorem transpose_read (e n : Fin 10000) : val_main_v3 (F := Ideal) x1 (ix2 e n) = x1 (ix2 n e) := by
  rw [val_main_v3_apply, idx_v3]

/-- The fourth product at column 0 is what edge `e` gathers: `∑ n, B n e * msg n`. -/
theorem edgeSum_read (e : Fin 10000) :
    val_main_v5 (F := Ideal) x0 x1 x2 x3 (ix2 e (0 : Fin 32)) = edgeSum x1 x0 x2 x3 e := by
  rw [val_main_v5_apply]
  unfold edgeSum
  refine Finset.sum_congr rfl fun n _ => ?_
  rw [lidx_v5, ridx_v5, transpose_read, nodeMsg_read]

/-- The row sums of the transposed incidence, started from the zero word, are `0 + degree`. -/
theorem edgeDeg_read (e : Fin 10000) : val_main_v6 (F := Ideal) x1 (ix1 e) = 0 + edgeDeg x1 e := by
  rw [val_main_v6_apply, val_main_cst_apply, Ideal.ofBits_def, Ideal.ofBits_zero_f32]
  unfold edgeDeg
  refine congrArg (0 + ·) (Finset.sum_congr rfl fun n _ => ?_)
  rw [idx_v6, transpose_read]

/-- The reciprocal of the degree, repeated along the feature axis. -/
theorem recip_read (e : Fin 10000) (c : Fin 32) :
    val_main_v10 (F := Ideal) x1 (ix2 e c) = Ideal.div 1 (0 + edgeDeg x1 e) := by
  rw [val_main_v10_apply, idx_v10, val_main_v9_apply, idx_v9, val_main_v8_apply, val_main_v7_apply,
    val_main_cst_0_apply, edgeDeg_read, Ideal.hostDivf_def, Ideal.ofBits_def, one_word]

/-- The logistic function, written out, of gathered sum times reciprocal degree, at column 0. -/
theorem logistic_read (e : Fin 10000) :
    val_main_v17 (F := Ideal) x0 x1 x2 x3 (ix2 e (0 : Fin 32))
      = Ideal.div 1 (1 + Ideal.exp (-(edgeSum x1 x0 x2 x3 e * Ideal.div 1 (0 + edgeDeg x1 e)))) := by
  rw [val_main_v17_apply, val_main_v16_apply, val_main_cst_2_apply, val_main_v15_apply, val_main_v14_apply,
    val_main_cst_1_apply, val_main_v13_apply, val_main_v12_apply, val_main_v11_apply, edgeSum_read, recip_read,
    Ideal.hostDivf_def, Ideal.addf_def, Ideal.hostUnary_exp_def, Ideal.hostNegf_def, Ideal.negf_def, Ideal.mulf_def,
    Ideal.ofBits_def, one_word]

/-- The mean over the edges at column 0: the sum started from the zero word, over the edge-count word. -/
theorem mean_read :
    val_main_v20 (F := Ideal) x0 x1 x2 x3 (ix1 (0 : Fin 32))
      = valueByReciprocal x1 x0 x2 x3 (Ideal.ofBits .f32 0x461C4000#32) := by
  rw [val_main_v20_apply, val_main_v19_apply, val_main_cst_4_apply, val_main_v18_apply, val_main_cst_3_apply,
    Ideal.hostDivf_def, Ideal.ofBits_def, Ideal.ofBits_def, Ideal.ofBits_zero_f32]
  unfold valueByReciprocal
  refine congrArg (Ideal.div · _) (congrArg (0 + ·) (Finset.sum_congr rfl fun e _ => ?_))
  rw [idx_v18, logistic_read]

/-! ## The result -/

/-- The reference's result: the slice `[0:1]` of the means, as a scalar, is the specification's value in its
    reciprocal spelling. The scalar shape and the one-element shape each have one index, at row-major position 0. -/
theorem ref_value (x0 : (⟨Cert.ReferenceIdeal.S10000x128, .f32⟩ : BufTy).Contents (Elt Ideal)) (x1 : (⟨Cert.ReferenceIdeal.S10000x10000, .f32⟩ : BufTy).Contents (Elt Ideal))
    (x2 : (⟨Cert.ReferenceIdeal.S128x32, .f32⟩ : BufTy).Contents (Elt Ideal)) (x3 : (⟨Cert.ReferenceIdeal.S32x32, .f32⟩ : BufTy).Contents (Elt Ideal)) :
    Cert.ReferenceIdeal.Read.val_main_v22 (F := Ideal) x0 x1 x2 x3 = fun _ => Cert.Layer.valueByReciprocal x1 x0 x2 x3 (Ideal.ofBits .f32 0x461C4000#32) := by
  funext i
  unfold val_main_v22
  rw [shapeCast_apply (val_main_v21 (F := Ideal) x0 x1 x2 x3) shapeCasts_S1_S_ i (ix1 (0 : Fin 1))
    (by rw [Shape.rowMajor_val_one]; exact (Shape.rowMajorPi_zero _ _).symm)]
  rw [val_main_v21_apply, idx_v21, mean_read]

end Cert.ReferenceIdeal.RefValue

end
-- ==== Proof.PreDeg.lean ====
/-
  The precondition, read back as a fact about the incidence array's column sums.

  The printed predicate is a conjunction of one-bit words. Its last conjunct is an "all" over the 10000 columns of the
  incidence array `B`: at column `e` it compares the sum of `B` over axis 0, started from the zero word, against the zero
  word, and asks that they differ. Over the extended reals that sum is `0 + ∑ n, B (n, e)`, which is edge `e`'s degree,
  and the zero word is `0`; so the predicate being 1 says that every edge degree is nonzero.
-/
import proofs.«165421_g10213432229972_week1_w1_594_27_alg».proof.Pre_finite_inputs
import proofs.«165421_g10213432229972_week1_w1_594_27_alg».proof.Proof.Gen.Pre_finite_inputs
import proofs.«165421_g10213432229972_week1_w1_594_27_alg».proof.Proof.Spec
import Idealize.ShloMosaic.Lib.ReduceAll
import Idealize.ShloMosaic.Lib.ValueIdx
import Idealize.ShloMosaic.PureOps.Ideal.Laws

noncomputable section

open scoped BigOperators
open Idealize.ShloMosaic Idealize.ShloMosaic.ValueIdx

namespace Cert.Layer.Pre

open Cert.Pre_finite_inputs

/-- The rank-zero shape has exactly one index. -/
instance : Subsingleton S_.Idx := ⟨fun a b => funext fun d => d.elim0⟩

/-- Removing axis 0 of a [10000, 10000] array leaves [10000]: the witness that names the inserted index. -/
theorem reduces_d0 : S10000x10000.Reduces [0] S10000 := by decide

/-- Over column `e`, inserting the coordinate `k` on axis 0 gives the index `(k, e)`. -/
theorem lift_eq (e k : Fin 10000) : reduces_d0.lift (ix1 e) k = ix2 k e := by
  funext c
  match c with
  | ⟨0, _⟩ => exact Fin.ext rfl
  | ⟨1, _⟩ => exact Fin.ext rfl

/-- The comparison "not equal" of two extended reals is the bit 1 only when they differ. -/
theorem cmp_une_eq_one {x y : EReal} (h : Ideal.cmp .une x y = 1#1) : x ≠ y := by
  intro hxy
  subst hxy
  simp [Ideal.cmp] at h

/-- The sum of `B` over axis 0 from the zero word, read at column `e`, is the sum `∑ n, B (n, e)`. -/
theorem colSum_eq [Cert.Pre_finite_inputs.Facts] (a1 : FVec Ideal S10000x10000 .f32) (e : Fin 10000) :
    Host.reduceAdd a1 (constant (F := Ideal) S_ .f32 0x00000000#32) Facts.reducesTo_S10000x10000_S10000_d0 Facts.h_S_ (ix1 e)
      = ∑ n : Fin 10000, a1 (ix2 n e) := by
  show Ideal.hostReduceAdd _ a1 (Ideal.ofBits .f32 0x00000000#32) (ix1 e) = _
  rw [Ideal.hostReduceAdd_single _ reduces_d0, Ideal.ofBits_zero_f32, zero_add]
  exact Finset.sum_congr rfl fun k _ => congrArg a1 (lift_eq e k)

/-- The zero word broadcast over the columns is `0` at every column. -/
theorem zeroRow_eq [Cert.Pre_finite_inputs.Facts] (e : Fin 10000) :
    broadcastInDim S10000 ![] Facts.bcast_S_S10000 (constant (F := Ideal) S_ .f32 0x00000000#32) (ix1 e) = (0 : EReal) := by
  show Ideal.ofBits .f32 0x00000000#32 = 0
  exact Ideal.ofBits_zero_f32

/-- Where the precondition holds, every edge degree is nonzero. -/
theorem deg_ne_zero [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x32 .f32) (a3 : FVec Ideal Cert.Pre_finite_inputs.S32x32 .f32)
    (h : Cert.Pre_finite_inputs.fn (F := Ideal) a0 a1 a2 a3 = fun _ => 1#1) :
    ∀ e : Fin 10000, Cert.Layer.edgeDeg a1 e ≠ 0 := by
  intro e
  -- the predicate's one word, as the printed conjunction
  have h0 := congrFun h ValueIdx.ix0
  dsimp only [Cert.Pre_finite_inputs.fn, Cert.Pre_finite_inputs.fn_part1] at h0
  -- its last conjunct: the "all" over the columns
  have h1 := (IntOp.andi_eq_one.1 h0).2
  -- at column `e`: the column sum differs from the zero word
  have h2 := Host.reduce_andi_all _ _ _ _ _ h1 (ix1 e)
  rw [cmpf_apply, Ideal.cmpf_def, colSum_eq, zeroRow_eq] at h2
  exact cmp_une_eq_one h2

end Cert.Layer.Pre

end
-- ==== Proof.lean ====
/-
  One hypergraph layer computed in a single streaming pass over the incidence array, against its plain reference.

  The reference forms the edge messages `X W1`, the node activations `max (B (X W1)) 0`, the node messages
  `act W2`, gathers them back along `Bᵀ`, scales each edge's row by the reciprocal of the edge's degree (the column
  sum of `B`), applies the logistic function and takes entry 0 of the mean over the edges. Only column 0 of `W2`
  reaches that entry. The kernel keeps the edge messages in a scratch, and for each block of 400 nodes adds that block's
  contribution to eight-row partial sums of the gathered column and of the degrees; at the last block it adds the
  eight rows, divides, applies the logistic function and takes the mean.

  Over the extended reals the two agree wherever every degree is nonzero: the kernel's sums are the reference's sums
  taken in another order (addition is commutative and associative), and a quotient by a nonzero degree is the product
  with its reciprocal. At a zero degree with a zero gathered sum they differ (`0 / 0` against `0 * (1 / 0)`), where the
  reference itself divides by zero; the precondition keeps the degrees off zero.

  The three frames: both kernel programs by their frame runs, the reference by its run. Nothing was rewritten between
  the kernel and its idealization.
-/
import proofs.«165421_g10213432229972_week1_w1_594_27_alg».proof.Defs
import proofs.«165421_g10213432229972_week1_w1_594_27_alg».proof.Proof.Gen.Kernel
import proofs.«165421_g10213432229972_week1_w1_594_27_alg».proof.Proof.Gen.Kernel.Frame
import proofs.«165421_g10213432229972_week1_w1_594_27_alg».proof.Proof.Gen.KernelIdeal
import proofs.«165421_g10213432229972_week1_w1_594_27_alg».proof.Proof.Gen.KernelIdeal.Frame
import proofs.«165421_g10213432229972_week1_w1_594_27_alg».proof.Proof.Gen.ReferenceIdeal
import proofs.«165421_g10213432229972_week1_w1_594_27_alg».proof.Proof.Gen.ReferenceIdeal.Run
import proofs.«165421_g10213432229972_week1_w1_594_27_alg».proof.Proof.Gen.ReferenceIdeal.Read
import proofs.«165421_g10213432229972_week1_w1_594_27_alg».proof.Proof.Gen.Pre_finite_inputs
import proofs.«165421_g10213432229972_week1_w1_594_27_alg».proof.Proof.KernelValue
import proofs.«165421_g10213432229972_week1_w1_594_27_alg».proof.Proof.Closed
import proofs.«165421_g10213432229972_week1_w1_594_27_alg».proof.Proof.RefRead
import proofs.«165421_g10213432229972_week1_w1_594_27_alg».proof.Proof.PreDeg
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer's value of the argument arrays: the kernel by its accumulators' closed form, the
    reference by reading its operations one at a time and the law for a nonzero degree. -/
theorem algebraic : Cert.algebraic_KernelIdeal_ReferenceIdeal := by
  intro m ρ m' ρ' hpre hagree
  have hD : ∀ c : Dev Cert.KernelIdeal.nD, ∀ e : Fin 10000,
      Cert.Layer.edgeDeg (m ((c.tc : Thread Cert.KernelIdeal.nD Cert.KernelIdeal.τ).loc Cert.KernelIdeal.main_arg1)) e ≠ 0 :=
    fun c => Cert.Layer.Pre.deg_ne_zero _ _ _ _ (hpre c)
  refine ⟨fun c => fun _ => Cert.Layer.value
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Ideal.ofBits .f32 0x461C4000#32), ?_, ?_⟩
  · refine (θ_run Cert.KernelIdeal.defs _ _).mono (fun _ h c => ⟨(h c).1.trans ?_, (h c).2⟩)
      (Cert.KernelIdeal.Accum.run m ρ)
    funext i
    exact Cert.KernelIdeal.Accum.out_value m c Cert.KernelIdeal.Accum.lt24 _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.ref_value,
      (hagree c).1, (hagree c).2.1, (hagree c).2.2.1, (hagree c).2.2.2]
    funext i
    exact Cert.Layer.valueByReciprocal_eq _ _ _ _ _ (hD c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
